-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_v70) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12000x500 : Shape := ⟨2, ![12000, 500]⟩
abbrev S2x384000 : Shape := ⟨2, ![2, 384000]⟩
abbrev S500x16 : Shape := ⟨2, ![500, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S12000x500 : S_.BroadcastsInDim S12000x500 (![] : Fin 0 → Fin S12000x500.rank)
  reducesTo_S12000x500_S_d0_1 : S12000x500.ReducesTo [0, 1] S_
  h_S_ : 0 < S_.numel
  bcast_S_S500x16 : S_.BroadcastsInDim S500x16 (![] : Fin 0 → Fin S500x16.rank)
  reducesTo_S500x16_S_d0_1 : S500x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S12000x500 .f32) (main_arg1 : IVec S2x384000 32) (main_arg2 : FVec F S500x16 .f32) (main_arg3 : FVec F S16 .f32) (main_arg4 : FVec F S16x7 .f32) (main_arg5 : FVec F S7 .f32) : IVec S_ 1 :=
  let main_v0 : FVec F S12000x500 .f32 := Host.absf main_arg0
  let main_cst : FVec F S_ .f32 := constant S_ .f32 0x7F800000#32
  let main_v1 : FVec F S12000x500 .f32 := broadcastInDim S12000x500 ![] bcast_S_S12000x500 main_cst
  let main_v2 : IVec S12000x500 1 := cmpf .olt main_v0 main_v1
  let main_c : IVec S_ 1 := constantI S_ 1 1#1
  let main_v3 : IVec S_ 1 := (fun x v => Host.reduce IntOp.andi x v reducesTo_S12000x500_S_d0_1 h_S_) main_v2 main_c
  let main_v4 : FVec F S500x16 .f32 := Host.absf main_arg2
  let main_cst_0 : FVec F S_ .f32 := constant S_ .f32 0x7F800000#32
  let main_v5 : FVec F S500x16 .f32 := broadcastInDim S500x16 ![] bcast_S_S500x16 main_cst_0
  let main_v6 : IVec S500x16 1 := cmpf .olt main_v4 main_v5
  let main_c_1 : IVec S_ 1 := constantI S_ 1 1#1
  let main_v7 : IVec S_ 1 := (fun x v => Host.reduce IntOp.andi x v reducesTo_S500x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S12000x500 : Shape := ⟨2, ![12000, 500]⟩
abbrev S2x384000 : Shape := ⟨2, ![2, 384000]⟩
abbrev S500x16 : Shape := ⟨2, ![500, 16]⟩
abbrev S16 : Shape := ⟨1, ![16]⟩
abbrev S16x7 : Shape := ⟨2, ![16, 7]⟩
abbrev S7 : Shape := ⟨1, ![7]⟩
abbrev S12000 : Shape := ⟨1, ![12000]⟩
abbrev S1x384000 : Shape := ⟨2, ![1, 384000]⟩
abbrev S384000 : Shape := ⟨1, ![384000]⟩
abbrev S396000 : Shape := ⟨1, ![396000]⟩
abbrev S_ : Shape := ⟨0, ![]⟩
abbrev S396000x1 : Shape := ⟨2, ![396000, 1]⟩
abbrev S12000x16 : Shape := ⟨2, ![12000, 16]⟩
abbrev S396000x16 : Shape := ⟨2, ![396000, 16]⟩
abbrev S1x16 : Shape := ⟨2, ![1, 16]⟩
abbrev S12000x7 : Shape := ⟨2, ![12000, 7]⟩
abbrev S396000x7 : Shape := ⟨2, ![396000, 7]⟩
abbrev S1x7 : Shape := ⟨2, ![1, 7]⟩
abbrev S12000x1 : Shape := ⟨2, ![12000, 1]⟩
abbrev S12288x7 : Shape := ⟨2, ![12288, 7]⟩
abbrev S12288x12288 : Shape := ⟨2, ![12288, 12288]⟩
abbrev S1536x7 : Shape := ⟨2, ![1536, 7]⟩
abbrev S1536x1536 : Shape := ⟨2, ![1536, 1536]⟩
abbrev S12000x12000 : Shape := ⟨2, ![12000, 12000]⟩

abbrev nBuf : Space → Nat
  | .hbm => 112
  | .vmem => 6
  | .smem => 0
  | _ => 0

abbrev bufTy : (tb : Table) → Fin (tcTables nBuf tb) → BufTy
  | .hbm, ⟨0, _⟩ => ⟨S12000x500, .f32⟩
  | .hbm, ⟨1, _⟩ => ⟨S2x384000, .i32⟩
  | .hbm, ⟨2, _⟩ => ⟨S500x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S12000, .i32⟩
  | .hbm, ⟨7, _⟩ => ⟨S1x384000, .i32⟩
  | .hbm, ⟨8, _⟩ => ⟨S384000, .i32⟩
  | .hbm, ⟨9, _⟩ => ⟨S396000, .i32⟩
  | .hbm, ⟨10, _⟩ => ⟨S1x384000, .i32⟩
  | .hbm, ⟨11, _⟩ => ⟨S384000, .i32⟩
  | .hbm, ⟨12, _⟩ => ⟨S396000, .i32⟩
  | .hbm, ⟨13, _⟩ => ⟨S_, .f32⟩
  | .hbm, ⟨14, _⟩ => ⟨S396000, .f32⟩
  | .hbm, ⟨15, _⟩ => ⟨S_, .f32⟩
  | .hbm, ⟨16, _⟩ => ⟨S12000, .f32⟩
  | .hbm, ⟨17, _⟩ => ⟨S396000x1, .i32⟩
  | .hbm, ⟨18, _⟩ => ⟨S12000, .f32⟩
  | .hbm, ⟨19, _⟩ => ⟨S_, .f32⟩
  | .hbm, ⟨20, _⟩ => ⟨S12000, .f32⟩
  | .hbm, ⟨21, _⟩ => ⟨S12000, .i1⟩
  | .hbm, ⟨22, _⟩ => ⟨S_, .f32⟩
  | .hbm, ⟨23, _⟩ => ⟨S12000, .f32⟩
  | .hbm, ⟨24, _⟩ => ⟨S12000, .f32⟩
  | .hbm, ⟨25, _⟩ => ⟨S12000, .f32⟩
  | .hbm, ⟨26, _⟩ => ⟨S_, .f32⟩
  | .hbm, ⟨27, _⟩ => ⟨S_, .f32⟩
  | .hbm, ⟨28, _⟩ => ⟨S12000, .f32⟩
  | .hbm, ⟨29, _⟩ => ⟨S12000, .f32⟩
  | .hbm, ⟨30, _⟩ => ⟨S_, .i32⟩
  | .hbm, ⟨31, _⟩ => ⟨S396000, .i32⟩
  | .hbm, ⟨32, _⟩ => ⟨S396000, .i1⟩
  | .hbm, ⟨33, _⟩ => ⟨S_, .i32⟩
  | .hbm, ⟨34, _⟩ => ⟨S396000, .i32⟩
  | .hbm, ⟨35, _⟩ => ⟨S396000, .i32⟩
  | .hbm, ⟨36, _⟩ => ⟨S396000, .i32⟩
  | .hbm, ⟨37, _⟩ => ⟨S396000x1, .i32⟩
  | .hbm, ⟨38, _⟩ => ⟨S396000, .f32⟩
  | .hbm, ⟨39, _⟩ => ⟨S_, .i32⟩
  | .hbm, ⟨40, _⟩ => ⟨S396000, .i32⟩
  | .hbm, ⟨41, _⟩ => ⟨S396000, .i1⟩
  | .hbm, ⟨42, _⟩ => ⟨S_, .i32⟩
  | .hbm, ⟨43, _⟩ => ⟨S396000, .i32⟩
  | .hbm, ⟨44, _⟩ => ⟨S396000, .i32⟩
  | .hbm, ⟨45, _⟩ => ⟨S396000, .i32⟩
  | .hbm, ⟨46, _⟩ => ⟨S396000x1, .i32⟩
  | .hbm, ⟨47, _⟩ => ⟨S396000, .f32⟩
  | .hbm, ⟨48, _⟩ => ⟨S396000, .f32⟩
  | .hbm, ⟨49, _⟩ => ⟨S12000x16, .f32⟩
  | .hbm, ⟨50, _⟩ => ⟨S_, .i32⟩
  | .hbm, ⟨51, _⟩ => ⟨S396000, .i32⟩
  | .hbm, ⟨52, _⟩ => ⟨S396000, .i1⟩
  | .hbm, ⟨53, _⟩ => ⟨S_, .i32⟩
  | .hbm, ⟨54, _⟩ => ⟨S396000, .i32⟩
  | .hbm, ⟨55, _⟩ => ⟨S396000, .i32⟩
  | .hbm, ⟨56, _⟩ => ⟨S396000, .i32⟩
  | .hbm, ⟨57, _⟩ => ⟨S396000x1, .i32⟩
  | .hbm, ⟨58, _⟩ => ⟨S396000x16, .f32⟩
  | .hbm, ⟨59, _⟩ => ⟨S396000x1, .f32⟩
  | .hbm, ⟨60, _⟩ => ⟨S396000x16, .f32⟩
  | .hbm, ⟨61, _⟩ => ⟨S396000x16, .f32⟩
  | .hbm, ⟨62, _⟩ => ⟨S_, .f32⟩
  | .hbm, ⟨63, _⟩ => ⟨S12000x16, .f32⟩
  | .hbm, ⟨64, _⟩ => ⟨S396000x1, .i32⟩
  | .hbm, ⟨65, _⟩ => ⟨S12000x16, .f32⟩
  | .hbm, ⟨66, _⟩ => ⟨S1x16, .f32⟩
  | .hbm, ⟨67, _⟩ => ⟨S12000x16, .f32⟩
  | .hbm, ⟨68, _⟩ => ⟨S12000x16, .f32⟩
  | .hbm, ⟨69, _⟩ => ⟨S_, .f32⟩
  | .hbm, ⟨70, _⟩ => ⟨S12000x16, .f32⟩
  | .hbm, ⟨71, _⟩ => ⟨S12000x16, .f32⟩
  | .hbm, ⟨72, _⟩ => ⟨S12000x7, .f32⟩
  | .hbm, ⟨73, _⟩ => ⟨S_, .i32⟩
  | .hbm, ⟨74, _⟩ => ⟨S396000, .i32⟩
  | .hbm, ⟨75, _⟩ => ⟨S396000, .i1⟩
  | .hbm, ⟨76, _⟩ => ⟨S_, .i32⟩
  | .hbm, ⟨77, _⟩ => ⟨S396000, .i32⟩
  | .hbm, ⟨78, _⟩ => ⟨S396000, .i32⟩
  | .hbm, ⟨79, _⟩ => ⟨S396000, .i32⟩
  | .hbm, ⟨80, _⟩ => ⟨S396000x1, .i32⟩
  | .hbm, ⟨81, _⟩ => ⟨S396000x7, .f32⟩
  | .hbm, ⟨82, _⟩ => ⟨S396000x1, .f32⟩
  | .hbm, ⟨83, _⟩ => ⟨S396000x7, .f32⟩
  | .hbm, ⟨84, _⟩ => ⟨S396000x7, .f32⟩
  | .hbm, ⟨85, _⟩ => ⟨S_, .f32⟩
  | .hbm, ⟨86, _⟩ => ⟨S12000x7, .f32⟩
  | .hbm, ⟨87, _⟩ => ⟨S396000x1, .i32⟩
  | .hbm, ⟨88, _⟩ => ⟨S12000x7, .f32⟩
  | .hbm, ⟨89, _⟩ => ⟨S1x7, .f32⟩
  | .hbm, ⟨90, _⟩ => ⟨S12000x7, .f32⟩
  | .hbm, ⟨91, _⟩ => ⟨S12000x7, .f32⟩
  | .hbm, ⟨92, _⟩ => ⟨S_, .f32⟩
  | .hbm, ⟨93, _⟩ => ⟨S12000, .f32⟩
  | .hbm, ⟨94, _⟩ => ⟨S_, .f32⟩
  | .hbm, ⟨95, _⟩ => ⟨S12000, .f32⟩
  | .hbm, ⟨96, _⟩ => ⟨S12000, .f32⟩
  | .hbm, ⟨97, _⟩ => ⟨S12000x1, .f32⟩
  | .hbm, ⟨98, _⟩ => ⟨S12000x7, .f32⟩
  | .hbm, ⟨99, _⟩ => ⟨S12000x7, .f32⟩
  | .hbm, ⟨100, _⟩ => ⟨S12000x7, .f32⟩
  | .hbm, ⟨101, _⟩ => ⟨S_, .f32⟩
  | .hbm, ⟨102, _⟩ => ⟨S12000, .f32⟩
  | .hbm, ⟨103, _⟩ => ⟨S12000x1, .f32⟩
  | .hbm, ⟨104, _⟩ => ⟨S12000x1, .f32⟩
  | .hbm, ⟨105, _⟩ => ⟨S12000x7, .f32⟩
  | .hbm, ⟨106, _⟩ => ⟨S12000x7, .f32⟩
  | .hbm, ⟨107, _⟩ => ⟨S_, .i32⟩
  | .hbm, ⟨108, _⟩ => ⟨S_, .f32⟩
  | .hbm, ⟨109, _⟩ => ⟨S12288x7, .f32⟩
  | .hbm, ⟨110, _⟩ => ⟨S12288x12288, .f32⟩
  | .hbm, ⟨111, _⟩ => ⟨S12000x12000, .f32⟩
  | .local _ .vmem, ⟨0, _⟩ => ⟨S1536x7, .f32⟩
  | .local _ .vmem, ⟨1, _⟩ => ⟨S1536x7, .f32⟩
  | .local _ .vmem, ⟨2, _⟩ => ⟨S1536x7, .f32⟩
  | .local _ .vmem, ⟨3, _⟩ => ⟨S1536x7, .f32⟩
  | .local _ .vmem, ⟨4, _⟩ => ⟨S1536x1536, .f32⟩
  | .local _ .vmem, ⟨5, _⟩ => ⟨S1536x1536, .f32⟩
  | _, _ => ⟨S12000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩
abbrev main_c_13 : Ref sig .tc := ⟨.hbm, 107, rfl⟩
abbrev main_call3_v0 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1536x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1536x7 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1536x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S2x384000_S1x384000_0_0 : S2x384000.Slices ![0, 0] S1x384000
  shapeCasts_S1x384000_S384000 : S1x384000.ShapeCasts S384000
  concatenates_S384000_S12000_S396000_d0 : Shape.Concatenates [S384000, S12000] S396000 0
  slices_S2x384000_S1x384000_1_0 : S2x384000.Slices ![1, 0] S1x384000
  bcast_S_S396000 : S_.BroadcastsInDim S396000 (![] : Fin 0 → Fin S396000.rank)
  bcast_S_S12000 : S_.BroadcastsInDim S12000 (![] : Fin 0 → Fin S12000.rank)
  bcast_S396000_S396000x1_0 : S396000.BroadcastsInDim S396000x1 (![0] : Fin 1 → Fin S396000x1.rank)
  bcast_S396000x1_S396000x16_0_1 : S396000x1.BroadcastsInDim S396000x16 (![0, 1] : Fin 2 → Fin S396000x16.rank)
  bcast_S_S12000x16 : S_.BroadcastsInDim S12000x16 (![] : Fin 0 → Fin S12000x16.rank)
  bcast_S16_S1x16_1 : S16.BroadcastsInDim S1x16 (![1] : Fin 1 → Fin S1x16.rank)
  bcast_S1x16_S12000x16_0_1 : S1x16.BroadcastsInDim S12000x16 (![0, 1] : Fin 2 → Fin S12000x16.rank)
  bcast_S396000x1_S396000x7_0_1 : S396000x1.BroadcastsInDim S396000x7 (![0, 1] : Fin 2 → Fin S396000x7.rank)
  bcast_S_S12000x7 : S_.BroadcastsInDim S12000x7 (![] : Fin 0 → Fin S12000x7.rank)
  bcast_S7_S1x7_1 : S7.BroadcastsInDim S1x7 (![1] : Fin 1 → Fin S1x7.rank)
  bcast_S1x7_S12000x7_0_1 : S1x7.BroadcastsInDim S12000x7 (![0, 1] : Fin 2 → Fin S12000x7.rank)
  reducesTo_S12000x7_S12000_d1 : S12000x7.ReducesTo [1] S12000
  h_S_ : 0 < S_.numel
  bcast_S12000_S12000x1_0 : S12000.BroadcastsInDim S12000x1 (![0] : Fin 1 → Fin S12000x1.rank)
  bcast_S12000x1_S12000x7_0_1 : S12000x1.BroadcastsInDim S12000x7 (![0, 1] : Fin 2 → Fin S12000x7.rank)
  pads_S12000x7_S12288x7_02880_000 : S12000x7.Pads (![0, 0] : Fin 2 → Nat) ![288, 0] ![0, 0] S12288x7
  inb_S1536x7_S1536x7_0_0 : ∀ a, (![0, 0] : Fin 2 → Nat) a + S1536x7.size a ≤ S1536x7.size a
  h_S1536x7 : 0 < S1536x7.numel
  shapeCasts_S1536x7_S1536x7 : S1536x7.ShapeCasts S1536x7
  inb_S1536x1536_S1536x1536_0_0 : ∀ a, (![0, 0] : Fin 2 → Nat) a + S1536x1536.size a ≤ S1536x1536.size a
  h_S1536x1536 : 0 < S1536x1536.numel
  slices_S12288x12288_S12000x12000_0_0 : S12288x12288.Slices ![0, 0] S12000x12000
  scatter_S12000_S396000x1_S396000_n_0_0_1_wf : ScatterDims.WF S12000 S396000x1 S396000 [] [0] [0] 1
  gather_S12000_S396000x1_S396000_n_0_n_n_0_1_1_wf : GatherDims.WF S12000 S396000x1 S396000 [] [0] [] [0] [] 1 ![1]
  dot_S12000x500_S500x16_S12000x16_1_0_0_1_n_n_wf : DotDims.WF S12000x500 S500x16 S12000x16 [1] [0] [0] [1] [] []
  gather_S12000x16_S396000x1_S396000x16_1_0_n_n_0_1_116_wf : GatherDims.WF S12000x16 S396000x1 S396000x16 [1] [0] [] [0] [] 1 ![1, 16]
  scatter_S12000x16_S396000x1_S396000x16_1_0_0_1_wf : ScatterDims.WF S12000x16 S396000x1 S396000x16 [1] [0] [0] 1
  dot_S12000x16_S16x7_S12000x7_1_0_0_1_n_n_wf : DotDims.WF S12000x16 S16x7 S12000x7 [1] [0] [0] [1] [] []
  gather_S12000x7_S396000x1_S396000x7_1_0_n_n_0_1_17_wf : GatherDims.WF S12000x7 S396000x1 S396000x7 [1] [0] [] [0] [] 1 ![1, 7]
  scatter_S12000x7_S396000x1_S396000x7_1_0_0_1_wf : ScatterDims.WF S12000x7 S396000x1 S396000x7 [1] [0] [0] 1
  dot_S1536x7_S1536x7_S1536x1536_1_1_0_0_n_n_wf : DotDims.WF S1536x7 S1536x7 S1536x1536 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1536x7.size a ≤ S12288x7.size a
  hwx0_0 : ∀ i : grid0.Coords, EltTy.bits .f32 = 32 ∨ (Rect.block (s := S12288x7) S1536x7.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1536x7.size a ≤ S12288x7.size a
  hwx0_1 : ∀ i : grid0.Coords, EltTy.bits .f32 = 32 ∨ (Rect.block (s := S12288x7) S1536x7.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1536x1536.size a ≤ S12288x12288.size a
  hwx0_2 : ∀ i : grid0.Coords, EltTy.bits .f32 = 32 ∨ (Rect.block (s := S12288x12288) S1536x1536.size (cc0_transform_2 i) (hinb0_2 i)).WholeWords (EltTy.packing .f32)

variable [Facts₀]

def scatter_S12000_S396000x1_S396000_n_0_0_1 : ScatterDims S12000 S396000x1 S396000 where
  updateWindowDims := []
  insertedWindowDims := [0]
  scatterDimsToOperandDims := [0]
  indexVectorDim := 1
  wf := scatter_S12000_S396000x1_S396000_n_0_0_1_wf
def gather_S12000_S396000x1_S396000_n_0_n_n_0_1_1 : GatherDims S12000 S396000x1 S396000 where
  offsetDims := []
  collapsedSliceDims := [0]
  operandBatchingDims := []
  startIndicesBatchingDims := []
  startIndexMap := [0]
  indexVectorDim := 1
  sliceSizes := ![1]
  wf := gather_S12000_S396000x1_S396000_n_0_n_n_0_1_1_wf
def dot_S12000x500_S500x16_S12000x16_1_0_0_1_n_n : DotDims S12000x500 S500x16 S12000x16 where
  lhsContracting := [1]
  rhsContracting := [0]
  lhsNonContracting := [0]
  rhsNonContracting := [1]
  lhsBatch := []
  rhsBatch := []
  wf := dot_S12000x500_S500x16_S12000x16_1_0_0_1_n_n_wf
def gather_S12000x16_S396000x1_S396000x16_1_0_n_n_0_1_116 : GatherDims S12000x16 S396000x1 S396000x16 where
  offsetDims := [1]
  collapsedSliceDims := [0]
  operandBatchingDims := []
  startIndicesBatchingDims := []
  startIndexMap := [0]
  indexVectorDim := 1
  sliceSizes := ![1, 16]
  wf := gather_S12000x16_S396000x1_S396000x16_1_0_n_n_0_1_116_wf
def scatter_S12000x16_S396000x1_S396000x16_1_0_0_1 : ScatterDims S12000x16 S396000x1 S396000x16 where
  updateWindowDims := [1]
  insertedWindowDims := [0]
  scatterDimsToOperandDims := [0]
  indexVectorDim := 1
  wf := scatter_S12000x16_S396000x1_S396000x16_1_0_0_1_wf
def dot_S12000x16_S16x7_S12000x7_1_0_0_1_n_n : DotDims S12000x16 S16x7 S12000x7 where
  lhsContracting := [1]
  rhsContracting := [0]
  lhsNonContracting := [0]
  rhsNonContracting := [1]
  lhsBatch := []
  rhsBatch := []
  wf := dot_S12000x16_S16x7_S12000x7_1_0_0_1_n_n_wf
def gather_S12000x7_S396000x1_S396000x7_1_0_n_n_0_1_17 : GatherDims S12000x7 S396000x1 S396000x7 where
  offsetDims := [1]
  collapsedSliceDims := [0]
  operandBatchingDims := []
  startIndicesBatchingDims := []
  startIndexMap := [0]
  indexVectorDim := 1
  sliceSizes := ![1, 7]
  wf := gather_S12000x7_S396000x1_S396000x7_1_0_n_n_0_1_17_wf
def scatter_S12000x7_S396000x1_S396000x7_1_0_0_1 : ScatterDims S12000x7 S396000x1 S396000x7 where
  updateWindowDims := [1]
  insertedWindowDims := [0]
  scatterDimsToOperandDims := [0]
  indexVectorDim := 1
  wf := scatter_S12000x7_S396000x1_S396000x7_1_0_0_1_wf
def dot_S1536x7_S1536x7_S1536x1536_1_1_0_0_n_n : DotDims S1536x7 S1536x7 S1536x1536 where
  lhsContracting := [1]
  rhsContracting := [1]
  lhsNonContracting := [0]
  rhsNonContracting := [0]
  lhsBatch := []
  rhsBatch := []
  wf := dot_S1536x7_S1536x7_S1536x1536_1_1_0_0_n_n_wf

abbrev win0_0 : Pipeline.Window sig grid0 :=
  Pipeline.Window.ofSpec (Memref.whole main_v68) S1536x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v68) S1536x7.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v69) S1536x1536.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S12000x500 : Shape := ⟨2, ![12000, 500]⟩
abbrev S2x384000 : Shape := ⟨2, ![2, 384000]⟩
abbrev S500x16 : Shape := ⟨2, ![500, 16]⟩
abbrev S16 : Shape := ⟨1, ![16]⟩
abbrev S16x7 : Shape := ⟨2, ![16, 7]⟩
abbrev S7 : Shape := ⟨1, ![7]⟩
abbrev S12000 : Shape := ⟨1, ![12000]⟩
abbrev S1x384000 : Shape := ⟨2, ![1, 384000]⟩
abbrev S384000 : Shape := ⟨1, ![384000]⟩
abbrev S396000 : Shape := ⟨1, ![396000]⟩
abbrev S_ : Shape := ⟨0, ![]⟩
abbrev S396000x1 : Shape := ⟨2, ![396000, 1]⟩
abbrev S12000x16 : Shape := ⟨2, ![12000, 16]⟩
abbrev S396000x16 : Shape := ⟨2, ![396000, 16]⟩
abbrev S1x16 : Shape := ⟨2, ![1, 16]⟩
abbrev S12000x7 : Shape := ⟨2, ![12000, 7]⟩
abbrev S396000x7 : Shape := ⟨2, ![396000, 7]⟩
abbrev S1x7 : Shape := ⟨2, ![1, 7]⟩
abbrev S12000x1 : Shape := ⟨2, ![12000, 1]⟩
abbrev S7x12000 : Shape := ⟨2, ![7, 12000]⟩
abbrev S12000x12000 : Shape := ⟨2, ![12000, 12000]⟩

abbrev nBuf : Space → Nat
  | .hbm => 109
  | .vmem => 0
  | .smem => 0
  | _ => 0

abbrev bufTy : (tb : Table) → Fin (tcTables nBuf tb) → BufTy
  | .hbm, ⟨0, _⟩ => ⟨S12000x500, .f32⟩
  | .hbm, ⟨1, _⟩ => ⟨S2x384000, .i32⟩
  | .hbm, ⟨2, _⟩ => ⟨S500x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S12000, .i32⟩
  | .hbm, ⟨7, _⟩ => ⟨S1x384000, .i32⟩
  | .hbm, ⟨8, _⟩ => ⟨S384000, .i32⟩
  | .hbm, ⟨9, _⟩ => ⟨S396000, .i32⟩
  | .hbm, ⟨10, _⟩ => ⟨S1x384000, .i32⟩
  | .hbm, ⟨11, _⟩ => ⟨S384000, .i32⟩
  | .hbm, ⟨12, _⟩ => ⟨S396000, .i32⟩
  | .hbm, ⟨13, _⟩ => ⟨S_, .f32⟩
  | .hbm, ⟨14, _⟩ => ⟨S396000, .f32⟩
  | .hbm, ⟨15, _⟩ => ⟨S_, .f32⟩
  | .hbm, ⟨16, _⟩ => ⟨S12000, .f32⟩
  | .hbm, ⟨17, _⟩ => ⟨S396000x1, .i32⟩
  | .hbm, ⟨18, _⟩ => ⟨S12000, .f32⟩
  | .hbm, ⟨19, _⟩ => ⟨S_, .f32⟩
  | .hbm, ⟨20, _⟩ => ⟨S12000, .f32⟩
  | .hbm, ⟨21, _⟩ => ⟨S12000, .i1⟩
  | .hbm, ⟨22, _⟩ => ⟨S_, .f32⟩
  | .hbm, ⟨23, _⟩ => ⟨S12000, .f32⟩
  | .hbm, ⟨24, _⟩ => ⟨S12000, .f32⟩
  | .hbm, ⟨25, _⟩ => ⟨S12000, .f32⟩
  | .hbm, ⟨26, _⟩ => ⟨S_, .f32⟩
  | .hbm, ⟨27, _⟩ => ⟨S_, .f32⟩
  | .hbm, ⟨28, _⟩ => ⟨S12000, .f32⟩
  | .hbm, ⟨29, _⟩ => ⟨S12000, .f32⟩
  | .hbm, ⟨30, _⟩ => ⟨S_, .i32⟩
  | .hbm, ⟨31, _⟩ => ⟨S396000, .i32⟩
  | .hbm, ⟨32, _⟩ => ⟨S396000, .i1⟩
  | .hbm, ⟨33, _⟩ => ⟨S_, .i32⟩
  | .hbm, ⟨34, _⟩ => ⟨S396000, .i32⟩
  | .hbm, ⟨35, _⟩ => ⟨S396000, .i32⟩
  | .hbm, ⟨36, _⟩ => ⟨S396000, .i32⟩
  | .hbm, ⟨37, _⟩ => ⟨S396000x1, .i32⟩
  | .hbm, ⟨38, _⟩ => ⟨S396000, .f32⟩
  | .hbm, ⟨39, _⟩ => ⟨S_, .i32⟩
  | .hbm, ⟨40, _⟩ => ⟨S396000, .i32⟩
  | .hbm, ⟨41, _⟩ => ⟨S396000, .i1⟩
  | .hbm, ⟨42, _⟩ => ⟨S_, .i32⟩
  | .hbm, ⟨43, _⟩ => ⟨S396000, .i32⟩
  | .hbm, ⟨44, _⟩ => ⟨S396000, .i32⟩
  | .hbm, ⟨45, _⟩ => ⟨S396000, .i32⟩
  | .hbm, ⟨46, _⟩ => ⟨S396000x1, .i32⟩
  | .hbm, ⟨47, _⟩ => ⟨S396000, .f32⟩
  | .hbm, ⟨48, _⟩ => ⟨S396000, .f32⟩
  | .hbm, ⟨49, _⟩ => ⟨S12000x16, .f32⟩
  | .hbm, ⟨50, _⟩ => ⟨S_, .i32⟩
  | .hbm, ⟨51, _⟩ => ⟨S396000, .i32⟩
  | .hbm, ⟨52, _⟩ => ⟨S396000, .i1⟩
  | .hbm, ⟨53, _⟩ => ⟨S_, .i32⟩
  | .hbm, ⟨54, _⟩ => ⟨S396000, .i32⟩
  | .hbm, ⟨55, _⟩ => ⟨S396000, .i32⟩
  | .hbm, ⟨56, _⟩ => ⟨S396000, .i32⟩
  | .hbm, ⟨57, _⟩ => ⟨S396000x1, .i32⟩
  | .hbm, ⟨58, _⟩ => ⟨S396000x16, .f32⟩
  | .hbm, ⟨59, _⟩ => ⟨S396000x1, .f32⟩
  | .hbm, ⟨60, _⟩ => ⟨S396000x16, .f32⟩
  | .hbm, ⟨61, _⟩ => ⟨S396000x16, .f32⟩
  | .hbm, ⟨62, _⟩ => ⟨S_, .f32⟩
  | .hbm, ⟨63, _⟩ => ⟨S12000x16, .f32⟩
  | .hbm, ⟨64, _⟩ => ⟨S396000x1, .i32⟩
  | .hbm, ⟨65, _⟩ => ⟨S12000x16, .f32⟩
  | .hbm, ⟨66, _⟩ => ⟨S1x16, .f32⟩
  | .hbm, ⟨67, _⟩ => ⟨S12000x16, .f32⟩
  | .hbm, ⟨68, _⟩ => ⟨S12000x16, .f32⟩
  | .hbm, ⟨69, _⟩ => ⟨S_, .f32⟩
  | .hbm, ⟨70, _⟩ => ⟨S12000x16, .f32⟩
  | .hbm, ⟨71, _⟩ => ⟨S12000x16, .f32⟩
  | .hbm, ⟨72, _⟩ => ⟨S12000x7, .f32⟩
  | .hbm, ⟨73, _⟩ => ⟨S_, .i32⟩
  | .hbm, ⟨74, _⟩ => ⟨S396000, .i32⟩
  | .hbm, ⟨75, _⟩ => ⟨S396000, .i1⟩
  | .hbm, ⟨76, _⟩ => ⟨S_, .i32⟩
  | .hbm, ⟨77, _⟩ => ⟨S396000, .i32⟩
  | .hbm, ⟨78, _⟩ => ⟨S396000, .i32⟩
  | .hbm, ⟨79, _⟩ => ⟨S396000, .i32⟩
  | .hbm, ⟨80, _⟩ => ⟨S396000x1, .i32⟩
  | .hbm, ⟨81, _⟩ => ⟨S396000x7, .f32⟩
  | .hbm, ⟨82, _⟩ => ⟨S396000x1, .f32⟩
  | .hbm, ⟨83, _⟩ => ⟨S396000x7, .f32⟩
  | .hbm, ⟨84, _⟩ => ⟨S396000x7, .f32⟩
  | .hbm, ⟨85, _⟩ => ⟨S_, .f32⟩
  | .hbm, ⟨86, _⟩ => ⟨S12000x7, .f32⟩
  | .hbm, ⟨87, _⟩ => ⟨S396000x1, .i32⟩
  | .hbm, ⟨88, _⟩ => ⟨S12000x7, .f32⟩
  | .hbm, ⟨89, _⟩ => ⟨S1x7, .f32⟩
  | .hbm, ⟨90, _⟩ => ⟨S12000x7, .f32⟩
  | .hbm, ⟨91, _⟩ => ⟨S12000x7, .f32⟩
  | .hbm, ⟨92, _⟩ => ⟨S_, .f32⟩
  | .hbm, ⟨93, _⟩ => ⟨S12000, .f32⟩
  | .hbm, ⟨94, _⟩ => ⟨S_, .f32⟩
  | .hbm, ⟨95, _⟩ => ⟨S12000, .f32⟩
  | .hbm, ⟨96, _⟩ => ⟨S12000, .f32⟩
  | .hbm, ⟨97, _⟩ => ⟨S12000x1, .f32⟩
  | .hbm, ⟨98, _⟩ => ⟨S12000x7, .f32⟩
  | .hbm, ⟨99, _⟩ => ⟨S12000x7, .f32⟩
  | .hbm, ⟨100, _⟩ => ⟨S12000x7, .f32⟩
  | .hbm, ⟨101, _⟩ => ⟨S_, .f32⟩
  | .hbm, ⟨102, _⟩ => ⟨S12000, .f32⟩
  | .hbm, ⟨103, _⟩ => ⟨S12000x1, .f32⟩
  | .hbm, ⟨104, _⟩ => ⟨S12000x1, .f32⟩
  | .hbm, ⟨105, _⟩ => ⟨S12000x7, .f32⟩
  | .hbm, ⟨106, _⟩ => ⟨S12000x7, .f32⟩
  | .hbm, ⟨107, _⟩ => ⟨S7x12000, .f32⟩
  | .hbm, ⟨108, _⟩ => ⟨S12000x12000, .f32⟩
  | _, _ => ⟨S12000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩

abbrev nD : Nat := 1
abbrev τ : Topo := Topo.v7x

variable {F : FTy → Type} [FloatOps F]

class Facts₀ : Prop where
  slices_S2x384000_S1x384000_0_0 : S2x384000.Slices ![0, 0] S1x384000
  shapeCasts_S1x384000_S384000 : S1x384000.ShapeCasts S384000
  concatenates_S384000_S12000_S396000_d0 : Shape.Concatenates [S384000, S12000] S396000 0
  slices_S2x384000_S1x384000_1_0 : S2x384000.Slices ![1, 0] S1x384000
  bcast_S_S396000 : S_.BroadcastsInDim S396000 (![] : Fin 0 → Fin S396000.rank)
  bcast_S_S12000 : S_.BroadcastsInDim S12000 (![] : Fin 0 → Fin S12000.rank)
  bcast_S396000_S396000x1_0 : S396000.BroadcastsInDim S396000x1 (![0] : Fin 1 → Fin S396000x1.rank)
  bcast_S396000x1_S396000x16_0_1 : S396000x1.BroadcastsInDim S396000x16 (![0, 1] : Fin 2 → Fin S396000x16.rank)
  bcast_S_S12000x16 : S_.BroadcastsInDim S12000x16 (![] : Fin 0 → Fin S12000x16.rank)
  bcast_S16_S1x16_1 : S16.BroadcastsInDim S1x16 (![1] : Fin 1 → Fin S1x16.rank)
  bcast_S1x16_S12000x16_0_1 : S1x16.BroadcastsInDim S12000x16 (![0, 1] : Fin 2 → Fin S12000x16.rank)
  bcast_S396000x1_S396000x7_0_1 : S396000x1.BroadcastsInDim S396000x7 (![0, 1] : Fin 2 → Fin S396000x7.rank)
  bcast_S_S12000x7 : S_.BroadcastsInDim S12000x7 (![] : Fin 0 → Fin S12000x7.rank)
  bcast_S7_S1x7_1 : S7.BroadcastsInDim S1x7 (![1] : Fin 1 → Fin S1x7.rank)
  bcast_S1x7_S12000x7_0_1 : S1x7.BroadcastsInDim S12000x7 (![0, 1] : Fin 2 → Fin S12000x7.rank)
  reducesTo_S12000x7_S12000_d1 : S12000x7.ReducesTo [1] S12000
  h_S_ : 0 < S_.numel
  bcast_S12000_S12000x1_0 : S12000.BroadcastsInDim S12000x1 (![0] : Fin 1 → Fin S12000x1.rank)
  bcast_S12000x1_S12000x7_0_1 : S12000x1.BroadcastsInDim S12000x7 (![0, 1] : Fin 2 → Fin S12000x7.rank)
  transposes_S12000x7_S7x12000_1_0 : S12000x7.Transposes [1, 0] S7x12000
  scatter_S12000_S396000x1_S396000_n_0_0_1_wf : ScatterDims.WF S12000 S396000x1 S396000 [] [0] [0] 1
  gather_S12000_S396000x1_S396000_n_0_n_n_0_1_1_wf : GatherDims.WF S12000 S396000x1 S396000 [] [0] [] [0] [] 1 ![1]
  dot_S12000x500_S500x16_S12000x16_1_0_0_1_n_n_wf : DotDims.WF S12000x500 S500x16 S12000x16 [1] [0] [0] [1] [] []
  gather_S12000x16_S396000x1_S396000x16_1_0_n_n_0_1_116_wf : GatherDims.WF S12000x16 S396000x1 S396000x16 [1] [0] [] [0] [] 1 ![1, 16]
  scatter_S12000x16_S396000x1_S396000x16_1_0_0_1_wf : ScatterDims.WF S12000x16 S396000x1 S396000x16 [1] [0] [0] 1
  dot_S12000x16_S16x7_S12000x7_1_0_0_1_n_n_wf : DotDims.WF S12000x16 S16x7 S12000x7 [1] [0] [0] [1] [] []
  gather_S12000x7_S396000x1_S396000x7_1_0_n_n_0_1_17_wf : GatherDims.WF S12000x7 S396000x1 S396000x7 [1] [0] [] [0] [] 1 ![1, 7]
  scatter_S12000x7_S396000x1_S396000x7_1_0_0_1_wf : ScatterDims.WF S12000x7 S396000x1 S396000x7 [1] [0] [0] 1
  dot_S12000x7_S7x12000_S12000x12000_1_0_0_1_n_n_wf : DotDims.WF S12000x7 S7x12000 S12000x12000 [1] [0] [0] [1] [] []

variable [Facts₀]

def scatter_S12000_S396000x1_S396000_n_0_0_1 : ScatterDims S12000 S396000x1 S396000 where
  updateWindowDims := []
  insertedWindowDims := [0]
  scatterDimsToOperandDims := [0]
  indexVectorDim := 1
  wf := scatter_S12000_S396000x1_S396000_n_0_0_1_wf
def gather_S12000_S396000x1_S396000_n_0_n_n_0_1_1 : GatherDims S12000 S396000x1 S396000 where
  offsetDims := []
  collapsedSliceDims := [0]
  operandBatchingDims := []
  startIndicesBatchingDims := []
  startIndexMap := [0]
  indexVectorDim := 1
  sliceSizes := ![1]
  wf := gather_S12000_S396000x1_S396000_n_0_n_n_0_1_1_wf
def dot_S12000x500_S500x16_S12000x16_1_0_0_1_n_n : DotDims S12000x500 S500x16 S12000x16 where
  lhsContracting := [1]
  rhsContracting := [0]
  lhsNonContracting := [0]
  rhsNonContracting := [1]
  lhsBatch := []
  rhsBatch := []
  wf := dot_S12000x500_S500x16_S12000x16_1_0_0_1_n_n_wf
def gather_S12000x16_S396000x1_S396000x16_1_0_n_n_0_1_116 : GatherDims S12000x16 S396000x1 S396000x16 where
  offsetDims := [1]
  collapsedSliceDims := [0]
  operandBatchingDims := []
  startIndicesBatchingDims := []
  startIndexMap := [0]
  indexVectorDim := 1
  sliceSizes := ![1, 16]
  wf := gather_S12000x16_S396000x1_S396000x16_1_0_n_n_0_1_116_wf
def scatter_S12000x16_S396000x1_S396000x16_1_0_0_1 : ScatterDims S12000x16 S396000x1 S396000x16 where
  updateWindowDims := [1]
  insertedWindowDims := [0]
  scatterDimsToOperandDims := [0]
  indexVectorDim := 1
  wf := scatter_S12000x16_S396000x1_S396000x16_1_0_0_1_wf
def dot_S12000x16_S16x7_S12000x7_1_0_0_1_n_n : DotDims S12000x16 S16x7 S12000x7 where
  lhsContracting := [1]
  rhsContracting := [0]
  lhsNonContracting := [0]
  rhsNonContracting := [1]
  lhsBatch := []
  rhsBatch := []
  wf := dot_S12000x16_S16x7_S12000x7_1_0_0_1_n_n_wf
def gather_S12000x7_S396000x1_S396000x7_1_0_n_n_0_1_17 : GatherDims S12000x7 S396000x1 S396000x7 where
  offsetDims := [1]
  collapsedSliceDims := [0]
  operandBatchingDims := []
  startIndicesBatchingDims := []
  startIndexMap := [0]
  indexVectorDim := 1
  sliceSizes := ![1, 7]
  wf := gather_S12000x7_S396000x1_S396000x7_1_0_n_n_0_1_17_wf
def scatter_S12000x7_S396000x1_S396000x7_1_0_0_1 : ScatterDims S12000x7 S396000x1 S396000x7 where
  updateWindowDims := [1]
  insertedWindowDims := [0]
  scatterDimsToOperandDims := [0]
  indexVectorDim := 1
  wf := scatter_S12000x7_S396000x1_S396000x7_1_0_0_1_wf
def dot_S12000x7_S7x12000_S12000x12000_1_0_0_1_n_n : DotDims S12000x7 S7x12000 S12000x12000 where
  lhsContracting := [1]
  rhsContracting := [0]
  lhsNonContracting := [0]
  rhsNonContracting := [1]
  lhsBatch := []
  rhsBatch := []
  wf := dot_S12000x7_S7x12000_S12000x12000_1_0_0_1_n_n_wf

class Facts : Prop extends Facts₀ where

variable [Facts]
-- ==== Proof.KI.Body.lean ====
/-
  The inner-product decoder's kernel region, one grid point at a time.

  The grid is 8 × 8.  At point (i, j) the pipeline hands the body rows [1536·i, 1536·(i+1)) of the padded
  feature matrix in its first window and rows [1536·j, 1536·(j+1)) of the SAME matrix in its second window
  (the two windows read one array), and the body stores into the third window's block the 1536 × 1536
  product of the first block with the transpose of the second, contracting the 7 features: entry (r, s) of
  block (i, j) is the inner product of row 1536·i + r with row 1536·j + s.  The body reads its two inputs,
  never writes them, and overwrites the whole output block, so what it leaves behind is a function of the
  two input blocks alone.
-/
import proofs.«135904_j42322607735202_1_alg».proof.Proof.Gen.KernelIdeal.Launch
import proofs.«135904_j42322607735202_1_alg».proof.Proof.Gen.KernelIdeal.Skeleton
import proofs.«135904_j42322607735202_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 1536 × 7 input block and the whole 1536 × 1536 output block, as the body addresses them. -/
abbrev rIn : Rect S1536x7 := Rect.unit (s := S1536x7) ![0, 0] S1536x7.size inb_S1536x7_S1536x7_0_0
abbrev rOut : Rect S1536x1536 := Rect.unit (s := S1536x1536) ![0, 0] S1536x1536.size inb_S1536x1536_S1536x1536_0_0

/-- What the body leaves in the output block: its one store, the product of the two input blocks. -/
def out0_2 (x0 x1 : Vec F S1536x7 .f32) : Vec F S1536x1536 .f32 :=
  View.canon [⟨rOut, k0_pay1 (View.ld x0 rIn) (View.ld x1 rIn)⟩]

/-- The one store covers the output block. -/
theorem cover0_2 (p0 : Vec F S1536x1536 .f32) (y : S1536x1536.Idx) :
    ∃ pc ∈ ([⟨rOut, p0⟩] : List (View.Piece (Elt F) S1536x1536 .f32)), y ∈ pc.1.set :=
  View.cover_of_tiled [⟨rOut, p0⟩] S1536x1536.size (by rfl) y

set_option maxHeartbeats 1000000 in
/-- The body on whole staging memrefs: the two input blocks at `x0`, `x1` stay, the output block ends at their product. -/
theorem sound_kernel0 (c : Dev nD) (E : Set ℕ) (i : grid0.Coords)
    (arg2 : Memref sig .tc .vmem S1536x7 .f32) (harg2 : arg2.IsWhole) (arg3 : Memref sig .tc .vmem S1536x7 .f32) (harg3 : arg3.IsWhole)
    (arg4 : Memref sig .tc .vmem S1536x1536 .f32) (harg4 : arg4.IsWhole)
    (x0 x1 : Vec F S1536x7 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__zzt_kernel i arg2 harg2 arg3 harg3 arg4 harg4) K := by
  simp only [cc0__zzt_kernel_eq_skeleton]; unfold cc0__zzt_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data on core `c`: the arrays as the region finds them; each input window keeps its block,
    the output window ends at the product of the two input blocks; the two input windows hold the one array they
    share at half a share each. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem share0_0 (c : Dev nD) : (dat0 V c).share 0 = fullShare.left := rfl
theorem share0_1 (c : Dev nD) : (dat0 V c).share 1 = fullShare.right := rfl
theorem share0_2 (c : Dev nD) : (dat0 V c).share 2 = fullShare := rfl

/-- Each input window's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- What the body is called with at point `t`: the invariant, the core's debts, and the three windows' current
    staging buffers, each input's at its block and the output's at whatever the pipeline left there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What the body returns: the same, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the two input buffers hold their blocks, the output buffer is overwritten whole, so the
    body's triple applies; the invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Entry.lean ====
/-
  The padded feature matrix is handed to the kernel region TWICE: its first and second windows read the same
  array.  So at the region's entry the one buffer behind both windows, held whole, is split into two half
  shares, one per window; the output array is held whole by the third window.  At the exit the two halves,
  which still hold the same contents, are joined back into the whole buffer.
-/
import proofs.«135904_j42322607735202_1_alg».proof.Proof.Gen.KernelIdeal.Launch
import proofs.«135904_j42322607735202_1_alg».proof.Proof.Gen.KernelIdeal.Skeleton
import proofs.«135904_j42322607735202_1_alg».proof.Proof.Gen.KernelIdeal.Points
import proofs.«135904_j42322607735202_1_alg».proof.Proof.KI.Body
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ### One buffer at a share -/

/-- Buffer `b` of core `c`, whole, held at share `q` at its contents under `W`. -/
def wholeAt (c : Dev nD) (W : (b : Ref sig .tc) → Buf (Elt F) ((c : Thread nD τ).loc b)) (b : Ref sig .tc) (q : PosShare TreeShare) : sProp 𝕄 :=
  ((c : Thread nD τ).loc b) ↦{q} W b

/-- A buffer held whole is its left half share and its right half share, at the same contents. -/
theorem wholeAt_halves (c : Dev nD) (W : (b : Ref sig .tc) → Buf (Elt F) ((c : Thread nD τ).loc b)) (b : Ref sig .tc) :
    (wholeAt c W b fullShare : sProp 𝕄) ⊣⊢ iprop(wholeAt c W b fullShare.left ∗ wholeAt c W b fullShare.right) :=
  pointsTo_share (PosShare.mem_left_op_right fullShare)

/-! ### The windows' arrays: two buffers behind three windows -/

/-- The second window reads the array the first one reads. -/
theorem arr1_eq_arr0 : Pipeline.arrRef spec0 1 = Pipeline.arrRef spec0 0 := by decide

/-- The windows' arrays are two buffers: the shared input array and the output array. -/
theorem arrImage0 : Finset.univ.image (Pipeline.arrRef spec0) = {Pipeline.arrRef spec0 0, Pipeline.arrRef spec0 2} := by decide

/-- The distinct buffers behind the windows' arrays, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop(wholeAt c W (Pipeline.arrRef spec0 0) fullShare ∗ wholeAt c W (Pipeline.arrRef spec0 2) fullShare) := by
  unfold Pipeline.arrBufs
  rw [arrImage0, BI.bigSep_insert (by decide), BI.bigSep_singleton]
  rfl

/-- Every window's array is a whole buffer, so the region's arrays at contents read off `W` are whole buffers at the
    windows' shares. -/
theorem arrays0_univ (c : Dev nD) (dat : Dat τ (Elt F) Unit ℕ (UR sig nD τ) ℕ cfg0 c)
    (W : (b : Ref sig .tc) → Buf (Elt F) ((c : Thread nD τ).loc b))
    (G : (w : Fin cfg0.W) → Buf (Elt F) ((cfg0.win w).arr.view.loc (c : Thread nD τ)))
    (hG : ∀ w, G w = W (Pipeline.arrRef spec0 w)) :
    (dat.arrays G : sProp 𝕄) = bigSep Finset.univ fun w : Fin 3 => wholeAt c W (Pipeline.arrRef spec0 w) (dat.share w) := by
  unfold Dat.arrays
  exact bigSep_congr fun w _ => by rw [(arr_whole0 w).set_eq_univ, hG w]; rfl

/-- The region's arrays window by window, for proof data that holds the shared array at the left half share in the
    first window and at the right half share in the second, and the output array whole in the third. -/
theorem arrays0_eq (c : Dev nD) (dat : Dat τ (Elt F) Unit ℕ (UR sig nD τ) ℕ cfg0 c)
    (h0 : dat.share 0 = fullShare.left) (h1 : dat.share 1 = fullShare.right) (h2 : dat.share 2 = fullShare)
    (W : (b : Ref sig .tc) → Buf (Elt F) ((c : Thread nD τ).loc b))
    (G : (w : Fin cfg0.W) → Buf (Elt F) ((cfg0.win w).arr.view.loc (c : Thread nD τ)))
    (hG : ∀ w, G w = W (Pipeline.arrRef spec0 w)) :
    (dat.arrays G : sProp 𝕄)
      = iprop(wholeAt c W (Pipeline.arrRef spec0 0) fullShare.left ∗ wholeAt c W (Pipeline.arrRef spec0 0) fullShare.right
          ∗ wholeAt c W (Pipeline.arrRef spec0 2) fullShare) := by
  rw [arrays0_univ c dat W G hG, bigSep_W0]
  exact congrArg₂ BI.sep (congrArg (wholeAt c W (Pipeline.arrRef spec0 0)) h0)
    (congrArg₂ BI.sep
      ((congrArg (wholeAt c W (Pipeline.arrRef spec0 1)) h1).trans (congrArg (fun b => wholeAt c W b fullShare.right) arr1_eq_arr0))
      (congrArg (wholeAt c W (Pipeline.arrRef spec0 2)) h2))

/-- The core's unscoped buffers are the distinct buffers behind the windows' arrays and the rest. -/
theorem unscopedBufs_split0 (c : Dev nD) (W : (b : Ref sig .tc) → Buf (Elt F) ((c : Thread nD τ).loc b)) :
    (unscopedBufs (Ix := Unit) (Name := ℕ) (U := UR sig nD τ) (Lvl := ℕ) c W : sProp 𝕄)
      = iprop(Pipeline.arrBufs (Ix := Unit) (Name := ℕ) (U := UR sig nD τ) (Lvl := ℕ) spec0 c W
          ∗ Pipeline.unscopedRest (Ix := Unit) (Name := ℕ) (U := UR sig nD τ) (Lvl := ℕ) spec0 c W) :=
  Pipeline.unscopedBufs_split₀ cfgs (0 : Fin 1) winFacts₀0.arr_unscoped c W

/-! ### Entry and exit -/

/-- ENTRY.  The core's unscoped buffers at the contents `V` are the region's arrays at the proof data's entry
    contents (the shared input array split into two half shares, the output array whole) and the unscoped rest. -/
theorem arrays_of_unscopedBufs0 (c : Dev nD) :
    (unscopedBufs (Ix := Unit) (Name := ℕ) (U := UR sig nD τ) (Lvl := ℕ) c (V c) : sProp 𝕄)
      ⊢ iprop((dat0 V c).arrays (dat0 V c).A ∗ Pipeline.unscopedRest (Ix := Unit) (Name := ℕ) (U := UR sig nD τ) (Lvl := ℕ) spec0 c (V c)) := by
  rw [unscopedBufs_split0, arrBufs0_eq,
    arrays0_eq c (dat0 V c) (share0_0 V c) (share0_1 V c) (share0_2 V c) (V c) (dat0 V c).A (A_eq0 V c)]
  iintro ⟨⟨H0, H2⟩, Hrest⟩
  ihave H := (wholeAt_halves c (V c) (Pipeline.arrRef spec0 0)).1 $$ H0
  icases H with ⟨Hl, Hr⟩
  isplitr [Hrest]
  · isplitl [Hl]; · iexact Hl
    isplitl [Hr]; · iexact Hr
    iexact H2
  · iexact Hrest

/-- EXIT.  The region's arrays at contents `G` (the two input windows' halves at equal contents) and the unscoped
    rest at `V` are the core's unscoped buffers at any `V'` that has the arrays at `G` and agrees with `V` elsewhere. -/
theorem unscopedBufs_of_arrays0 (c : Dev nD) (V' : (b : Ref sig .tc) → Buf (Elt F) ((c : Thread nD τ).loc b))
    (G : (w : Fin cfg0.W) → Buf (Elt F) ((cfg0.win w).arr.view.loc (c : Thread nD τ)))
    (hG : ∀ w, G w = V' (Pipeline.arrRef spec0 w))
    (hrest : ∀ b, b ∉ Finset.univ.image (Pipeline.arrRef spec0) → V' b = V c b) :
    iprop((dat0 V c).arrays G ∗ Pipeline.unscopedRest (Ix := Unit) (Name := ℕ) (U := UR sig nD τ) (Lvl := ℕ) spec0 c (V c))
      ⊢ (unscopedBufs (Ix := Unit) (Name := ℕ) (U := UR sig nD τ) (Lvl := ℕ) c V' : sProp 𝕄) := by
  have hR : (Pipeline.unscopedRest (Ix := Unit) (Name := ℕ) (U := UR sig nD τ) (Lvl := ℕ) spec0 c (V c) : sProp 𝕄)
      = Pipeline.unscopedRest (Ix := Unit) (Name := ℕ) (U := UR sig nD τ) (Lvl := ℕ) spec0 c V' := by
    unfold Pipeline.unscopedRest
    exact bigSep_congr fun b hb => by rw [hrest b (Finset.mem_sdiff.mp hb).2]
  rw [unscopedBufs_split0, arrBufs0_eq, hR,
    arrays0_eq c (dat0 V c) (share0_0 V c) (share0_1 V c) (share0_2 V c) V' G hG]
  iintro ⟨⟨Hl, Hr, H2⟩, Hrest⟩
  isplitr [Hrest]
  · isplitr [H2]
    · iapply (wholeAt_halves c V' (Pipeline.arrRef spec0 0)).2
      isplitl [Hl]; · iexact Hl
      iexact Hr
    · iexact H2
  · iexact Hrest

end Cert.KernelIdeal.Hand

end
-- ==== Proof.KI.Vals.lean ====
/-
  The contents of every buffer of a core at each boundary of the program, as a fold from the launch memory:
  after a stretch of host operations, those operations applied to the contents before it; after the kernel
  region, the same contents except at the region's output array, which holds what the pipeline's write-backs
  leave there.
-/
import proofs.«135904_j42322607735202_1_alg».proof.Proof.Gen.KernelIdeal.Launch
import proofs.«135904_j42322607735202_1_alg».proof.Proof.Gen.KernelIdeal.Skeleton
import proofs.«135904_j42322607735202_1_alg».proof.Proof.Gen.KernelIdeal.Points
import proofs.«135904_j42322607735202_1_alg».proof.Proof.KI.Body
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the host stretch `hostOps0`. -/
abbrev W1 : Dev nD → Valuation τ sig (Elt F) := fun c => StableHlo.after hostOps0 (W0 m c)
/-- After the host stretch `hostOps0_1`. -/
abbrev W2 : Dev nD → Valuation τ sig (Elt F) := fun c => StableHlo.after hostOps0_1 (W1 m c)
/-- After the host stretch `hostOps0_2`. -/
abbrev W3 : Dev nD → Valuation τ sig (Elt F) := fun c => StableHlo.after hostOps0_2 (W2 m c)
/-- After the host stretch `hostOps0_3`. -/
abbrev W4 : Dev nD → Valuation τ sig (Elt F) := fun c => StableHlo.after hostOps0_3 (W3 m c)
/-- After the host stretch `hostOps0_4`. -/
abbrev W5 : Dev nD → Valuation τ sig (Elt F) := fun c => StableHlo.after hostOps0_4 (W4 m c)
/-- After the host stretch `hostOps0_5`. -/
abbrev W6 : Dev nD → Valuation τ sig (Elt F) := fun c => StableHlo.after hostOps0_5 (W5 m c)
/-- After the host stretch `hostOps0_6`. -/
abbrev W7 : Dev nD → Valuation τ sig (Elt F) := fun c => StableHlo.after hostOps0_6 (W6 m c)
/-- After the host stretch `hostOps0_7`. -/
abbrev W8 : Dev nD → Valuation τ sig (Elt F) := fun c => StableHlo.after hostOps0_7 (W7 m c)

/-- The contents the region is entered at, read at the TensorCore's references. -/
abbrev V8 : (c : Dev nD) → (b : Ref sig .tc) → Buf (Elt F) ((c : Thread nD τ).loc b) := fun c b => W8 m c b

/-- At the region's exit: the output array at what the write-backs leave, every other buffer as entered. -/
def W9 (c : Dev nD) : Valuation τ sig (Elt F) :=
  Function.update (W8 m c) (Proc.devRef .tc main_v69) ((dat0 (V8 m) c).arrAt 2 cfg0.N)
theorem W9_out (c : Dev nD) : W9 m c (Proc.devRef .tc main_v69) = (dat0 (V8 m) c).arrAt 2 cfg0.N := by
  unfold W9; exact Function.update_self ..
theorem W9_of_ne (c : Dev nD) (b : Ref sig .tc) (hb : b ≠ main_v69) : W9 m c (Proc.devRef .tc b) = W8 m c (Proc.devRef .tc b) := by
  unfold W9; exact Function.update_of_ne (StableHlo.devRef_ne_of_ne hb) ..
abbrev V9 : (c : Dev nD) → (b : Ref sig .tc) → Buf (Elt F) ((c : Thread nD τ).loc b) := fun c b => W9 m c b

/-- After the last host stretch. -/
abbrev W10 : Dev nD → Valuation τ sig (Elt F) := fun c => StableHlo.after hostOps1 (W9 m c)

theorem hG0 (c : Dev nD) (w : Fin cfg0.W) : (dat0 (V8 m) c).arrAt w cfg0.N = V9 m c (Pipeline.arrRef spec0 w) := by
  match w with
  | ⟨0, _⟩ => exact (((dat0 (V8 m) c).arrAt_in 0 rfl _).trans (A_eq0 (V8 m) c 0)).trans (W9_of_ne m c main_v68 (by decide)).symm
  | ⟨1, _⟩ => exact (((dat0 (V8 m) c).arrAt_in 1 rfl _).trans (A_eq0 (V8 m) c 1)).trans (W9_of_ne m c main_v68 (by decide)).symm
  | ⟨2, _⟩ => exact (W9_out m c).symm
theorem hrest0 (c : Dev nD) : ∀ b, b ∉ Finset.univ.image (Pipeline.arrRef spec0) → V9 m c b = V8 m c b :=
  fun b hb => W9_of_ne m c b fun e => hb (Finset.mem_image.mpr ⟨2, Finset.mem_univ _, e.symm⟩)

end Cert.KernelIdeal.Hand

end
-- ==== Proof.KI.Run.lean ====
/-
  The whole program as a run: eight stretches of host operations (the graph-convolution layers up to the
  node embedding z and its log-softmax, then the zero-padding of z to 12288 rows), the kernel region, and one
  last host operation that slices the 12288 × 12288 product back to 12000 × 12000.

  Between two items the core holds every one of its unscoped buffers whole, at contents computed from the
  launch memory: after a host stretch, the stretch's operations applied to the contents before it; after
  the region, the same contents except at the region's output array, which holds what the pipeline's
  write-backs leave there.  The region is entered by splitting the shared input array into two half shares
  and left by joining them again.
-/
import proofs.«135904_j42322607735202_1_alg».proof.Proof.Gen.KernelIdeal.Launch
import proofs.«135904_j42322607735202_1_alg».proof.Proof.Gen.KernelIdeal.Skeleton
import proofs.«135904_j42322607735202_1_alg».proof.Proof.Gen.KernelIdeal.Points
import proofs.«135904_j42322607735202_1_alg».proof.Proof.KI.Body
import proofs.«135904_j42322607735202_1_alg».proof.Proof.KI.Entry
import proofs.«135904_j42322607735202_1_alg».proof.Proof.KI.Vals
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V8 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m c) ∗ ∃ r, prngReg c r)

/-! ## The region as a segment -/

set_option backward.isDefEq.respectTransparency.types false in
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V8 m) c).loose
  hwaits := Pipeline.hwaits_of_owed_zero _ _ _ _ L lv 0 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec0 c (V8 m c)
  hentry c := by
    rw [Pipeline.ownSems0_none]
    have hsplit := arrays_of_unscopedBufs0 (V8 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := unscopedBufs_of_arrays0 (V8 m) c (V9 m c) ((pdats m 0 c).arrAt · cfg0.N) (hG0 m c) (hrest0 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .host (hseg hostOps0_7 hostOps0_7_sub hostOps0_7_fresh (W7 m)),
    .region (reg0 m),
    .host (hseg hostOps1 hostOps1_sub hostOps1_fresh (W9 m)) ]

theorem main_run (c : Dev nD) : main (F := F) c = Pipeline.Seg.run (segs m) := (main_chain c).trans (by chain_rfl)

set_option backward.isDefEq.respectTransparency.types false in
/-- Every weakly fair execution of @main from a memory with zero counters terminates, nothing faulting, and ends
    with every unscoped buffer of every core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (StableHlo.after hostOps1 (W9 m c)) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

end Cert.KernelIdeal.Hand

end
-- ==== Proof.KI.Args.lean ====
/-
  No operation of the program writes one of its six arguments: each host operation writes a buffer of its own,
  and the kernel region writes its output array only.  So each argument's buffer holds at the end what it held
  at launch.
-/
import proofs.«135904_j42322607735202_1_alg».proof.Proof.Gen.KernelIdeal.Launch
import proofs.«135904_j42322607735202_1_alg».proof.Proof.Gen.KernelIdeal.Skeleton
import proofs.«135904_j42322607735202_1_alg».proof.Proof.Gen.KernelIdeal.Points
import proofs.«135904_j42322607735202_1_alg».proof.Proof.KI.Vals
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each host stretch writes -/

/-- The references the operations of `hostOps0` write, in order. -/
abbrev hostOps0_W : List (Ref sig .tc) :=
  [main_v0, main_v1, main_v2, main_v3, main_v4, main_v5, main_v6, main_cst, main_v7, main_cst_0, main_v8, main_v9, main_v10, main_cst_1, main_v11, main_v12, main_cst_2, main_v13, main_v14, main_v15, main_cst_3]
theorem hostOps0_writes : (hostOps0 : List (HloOp τ sig (Elt F))).Forall fun op => op.writes ⊆ (hostOps0_W.map (Proc.devRef (τ := τ) .tc)).toFinset := by
  simp only [List.Forall]
  simp only [StableHlo.nullary_writes, StableHlo.unary_writes, StableHlo.binary_writes, StableHlo.ternary_writes, StableHlo.reshape_writes, Finset.singleton_subset_iff, List.mem_toFinset]
  and_intros <;> exact List.mem_map_of_mem (by decide)
/-- A reference `hostOps0` does not write keeps its contents over it. -/
theorem hostOps0_keeps (V : Valuation τ sig (Elt F)) (r : Ref sig .tc) (h : r ∉ hostOps0_W) :
    StableHlo.after hostOps0 V (Proc.devRef .tc r) = V (Proc.devRef .tc r) :=
  StableHlo.after_of_writes_sub hostOps0 V hostOps0_writes h

/-- The references the operations of `hostOps0_1` write, in order. -/
abbrev hostOps0_1_W : List (Ref sig .tc) :=
  [main_call0_v0, main_call0_v1, main_v16]
theorem hostOps0_1_writes : (hostOps0_1 : List (HloOp τ sig (Elt F))).Forall fun op => op.writes ⊆ (hostOps0_1_W.map (Proc.devRef (τ := τ) .tc)).toFinset := by
  simp only [List.Forall]
  simp only [StableHlo.nullary_writes, StableHlo.unary_writes, StableHlo.binary_writes, StableHlo.ternary_writes, StableHlo.reshape_writes, Finset.singleton_subset_iff, List.mem_toFinset]
  and_intros <;> exact List.mem_map_of_mem (by decide)
/-- A reference `hostOps0_1` does not write keeps its contents over it. -/
theorem hostOps0_1_keeps (V : Valuation τ sig (Elt F)) (r : Ref sig .tc) (h : r ∉ hostOps0_1_W) :
    StableHlo.after hostOps0_1 V (Proc.devRef .tc r) = V (Proc.devRef .tc r) :=
  StableHlo.after_of_writes_sub hostOps0_1 V hostOps0_1_writes h

/-- The references the operations of `hostOps0_2` write, in order. -/
abbrev hostOps0_2_W : List (Ref sig .tc) :=
  [main_c, main_v17, main_v18, main_c_4, main_v19, main_v20, main_v21, main_v22, main_v23, main_c_5, main_v24, main_v25, main_c_6, main_v26, main_v27, main_v28, main_v29, main_v30, main_v31, main_v32, main_c_7, main_v33, main_v34, main_c_8, main_v35, main_v36, main_v37, main_v38, main_v39, main_v40, main_v41, main_v42, main_cst_9, main_v43, main_v44, main_v45, main_v46, main_v47, main_v48]
theorem hostOps0_2_writes : (hostOps0_2 : List (HloOp τ sig (Elt F))).Forall fun op => op.writes ⊆ (hostOps0_2_W.map (Proc.devRef (τ := τ) .tc)).toFinset := by
  simp only [List.Forall]
  simp only [StableHlo.nullary_writes, StableHlo.unary_writes, StableHlo.binary_writes, StableHlo.ternary_writes, StableHlo.reshape_writes, Finset.singleton_subset_iff, List.mem_toFinset]
  and_intros <;> exact List.mem_map_of_mem (by decide)
/-- A reference `hostOps0_2` does not write keeps its contents over it. -/
theorem hostOps0_2_keeps (V : Valuation τ sig (Elt F)) (r : Ref sig .tc) (h : r ∉ hostOps0_2_W) :
    StableHlo.after hostOps0_2 V (Proc.devRef .tc r) = V (Proc.devRef .tc r) :=
  StableHlo.after_of_writes_sub hostOps0_2 V hostOps0_2_writes h

/-- The references the operations of `hostOps0_3` write, in order. -/
abbrev hostOps0_3_W : List (Ref sig .tc) :=
  [main_call1_cst, main_call1_v0, main_v49]
theorem hostOps0_3_writes : (hostOps0_3 : List (HloOp τ sig (Elt F))).Forall fun op => op.writes ⊆ (hostOps0_3_W.map (Proc.devRef (τ := τ) .tc)).toFinset := by
  simp only [List.Forall]
  simp only [StableHlo.nullary_writes, StableHlo.unary_writes, StableHlo.binary_writes, StableHlo.ternary_writes, StableHlo.reshape_writes, Finset.singleton_subset_iff, List.mem_toFinset]
  and_intros <;> exact List.mem_map_of_mem (by decide)
/-- A reference `hostOps0_3` does not write keeps its contents over it. -/
theorem hostOps0_3_keeps (V : Valuation τ sig (Elt F)) (r : Ref sig .tc) (h : r ∉ hostOps0_3_W) :
    StableHlo.after hostOps0_3 V (Proc.devRef .tc r) = V (Proc.devRef .tc r) :=
  StableHlo.after_of_writes_sub hostOps0_3 V hostOps0_3_writes h

/-- The references the operations of `hostOps0_4` write, in order. -/
abbrev hostOps0_4_W : List (Ref sig .tc) :=
  [main_v50, main_c_10, main_v51, main_v52, main_c_11, main_v53, main_v54, main_v55, main_v56, main_v57, main_v58, main_v59, main_v60, main_cst_12, main_v61, main_v62, main_v63, main_v64, main_v65, main_v66]
theorem hostOps0_4_writes : (hostOps0_4 : List (HloOp τ sig (Elt F))).Forall fun op => op.writes ⊆ (hostOps0_4_W.map (Proc.devRef (τ := τ) .tc)).toFinset := by
  simp only [List.Forall]
  simp only [StableHlo.nullary_writes, StableHlo.unary_writes, StableHlo.binary_writes, StableHlo.ternary_writes, StableHlo.reshape_writes, Finset.singleton_subset_iff, List.mem_toFinset]
  and_intros <;> exact List.mem_map_of_mem (by decide)
/-- A reference `hostOps0_4` does not write keeps its contents over it. -/
theorem hostOps0_4_keeps (V : Valuation τ sig (Elt F)) (r : Ref sig .tc) (h : r ∉ hostOps0_4_W) :
    StableHlo.after hostOps0_4 V (Proc.devRef .tc r) = V (Proc.devRef .tc r) :=
  StableHlo.after_of_writes_sub hostOps0_4 V hostOps0_4_writes h

/-- The references the operations of `hostOps0_5` write, in order. -/
abbrev hostOps0_5_W : List (Ref sig .tc) :=
  [main_call2_cst, main_call2_v0, main_call2_cst_0, main_call2_v1, main_call2_v2, main_call2_v3, main_call2_v4, main_call2_v5, main_call2_v6, main_call2_cst_1, main_call2_v7, main_call2_v8, main_call2_v9, main_call2_v10, main_v67]
theorem hostOps0_5_writes : (hostOps0_5 : List (HloOp τ sig (Elt F))).Forall fun op => op.writes ⊆ (hostOps0_5_W.map (Proc.devRef (τ := τ) .tc)).toFinset := by
  simp only [List.Forall]
  simp only [StableHlo.nullary_writes, StableHlo.unary_writes, StableHlo.binary_writes, StableHlo.ternary_writes, StableHlo.reshape_writes, Finset.singleton_subset_iff, List.mem_toFinset]
  and_intros <;> exact List.mem_map_of_mem (by decide)
/-- A reference `hostOps0_5` does not write keeps its contents over it. -/
theorem hostOps0_5_keeps (V : Valuation τ sig (Elt F)) (r : Ref sig .tc) (h : r ∉ hostOps0_5_W) :
    StableHlo.after hostOps0_5 V (Proc.devRef .tc r) = V (Proc.devRef .tc r) :=
  StableHlo.after_of_writes_sub hostOps0_5 V hostOps0_5_writes h

/-- The references the operations of `hostOps0_6` write, in order. -/
abbrev hostOps0_6_W : List (Ref sig .tc) :=
  [main_c_13]
theorem hostOps0_6_writes : (hostOps0_6 : List (HloOp τ sig (Elt F))).Forall fun op => op.writes ⊆ (hostOps0_6_W.map (Proc.devRef (τ := τ) .tc)).toFinset := by
  simp only [List.Forall]
  simp only [StableHlo.nullary_writes, StableHlo.unary_writes, StableHlo.binary_writes, StableHlo.ternary_writes, StableHlo.reshape_writes, Finset.singleton_subset_iff, List.mem_toFinset]
  exact List.mem_map_of_mem (by decide)
/-- A reference `hostOps0_6` does not write keeps its contents over it. -/
theorem hostOps0_6_keeps (V : Valuation τ sig (Elt F)) (r : Ref sig .tc) (h : r ∉ hostOps0_6_W) :
    StableHlo.after hostOps0_6 V (Proc.devRef .tc r) = V (Proc.devRef .tc r) :=
  StableHlo.after_of_writes_sub hostOps0_6 V hostOps0_6_writes h

/-- The references the operations of `hostOps0_7` write, in order. -/
abbrev hostOps0_7_W : List (Ref sig .tc) :=
  [main_call3_v0, main_v68]
theorem hostOps0_7_writes : (hostOps0_7 : List (HloOp τ sig (Elt F))).Forall fun op => op.writes ⊆ (hostOps0_7_W.map (Proc.devRef (τ := τ) .tc)).toFinset := by
  simp only [List.Forall]
  simp only [StableHlo.nullary_writes, StableHlo.unary_writes, StableHlo.binary_writes, StableHlo.ternary_writes, StableHlo.reshape_writes, Finset.singleton_subset_iff, List.mem_toFinset]
  and_intros <;> exact List.mem_map_of_mem (by decide)
/-- A reference `hostOps0_7` does not write keeps its contents over it. -/
theorem hostOps0_7_keeps (V : Valuation τ sig (Elt F)) (r : Ref sig .tc) (h : r ∉ hostOps0_7_W) :
    StableHlo.after hostOps0_7 V (Proc.devRef .tc r) = V (Proc.devRef .tc r) :=
  StableHlo.after_of_writes_sub hostOps0_7 V hostOps0_7_writes h

/-- The references the operations of `hostOps1` write, in order. -/
abbrev hostOps1_W : List (Ref sig .tc) :=
  [main_v70]
theorem hostOps1_writes : (hostOps1 : List (HloOp τ sig (Elt F))).Forall fun op => op.writes ⊆ (hostOps1_W.map (Proc.devRef (τ := τ) .tc)).toFinset := by
  simp only [List.Forall]
  simp only [StableHlo.nullary_writes, StableHlo.unary_writes, StableHlo.binary_writes, StableHlo.ternary_writes, StableHlo.reshape_writes, Finset.singleton_subset_iff, List.mem_toFinset]
  exact List.mem_map_of_mem (by decide)
/-- A reference `hostOps1` does not write keeps its contents over it. -/
theorem hostOps1_keeps (V : Valuation τ sig (Elt F)) (r : Ref sig .tc) (h : r ∉ hostOps1_W) :
    StableHlo.after hostOps1 V (Proc.devRef .tc r) = V (Proc.devRef .tc r) :=
  StableHlo.after_of_writes_sub hostOps1 V hostOps1_writes h

/-! ## A buffer nothing has written yet -/

variable (m : (ℓ : Loc nD τ sig) → Buf (Elt F) ℓ)

/-- A reference none of the first 1 host stretch writes holds after it what it held at launch. -/
theorem W1_keeps (c : Dev nD) (r : Ref sig .tc) (h0 : r ∉ hostOps0_W) :
    W1 m c (Proc.devRef .tc r) = m ((c : Thread nD τ).loc r) :=
  (hostOps0_keeps _ r h0).trans rfl

/-- A reference none of the first 2 host stretches writes holds after them what it held at launch. -/
theorem W2_keeps (c : Dev nD) (r : Ref sig .tc) (h0 : r ∉ hostOps0_W) (h1 : r ∉ hostOps0_1_W) :
    W2 m c (Proc.devRef .tc r) = m ((c : Thread nD τ).loc r) :=
  (hostOps0_1_keeps _ r h1).trans (W1_keeps m c r h0)

/-- A reference none of the first 3 host stretches writes holds after them what it held at launch. -/
theorem W3_keeps (c : Dev nD) (r : Ref sig .tc) (h0 : r ∉ hostOps0_W) (h1 : r ∉ hostOps0_1_W) (h2 : r ∉ hostOps0_2_W) :
    W3 m c (Proc.devRef .tc r) = m ((c : Thread nD τ).loc r) :=
  (hostOps0_2_keeps _ r h2).trans (W2_keeps m c r h0 h1)

/-- A reference none of the first 4 host stretches writes holds after them what it held at launch. -/
theorem W4_keeps (c : Dev nD) (r : Ref sig .tc) (h0 : r ∉ hostOps0_W) (h1 : r ∉ hostOps0_1_W) (h2 : r ∉ hostOps0_2_W) (h3 : r ∉ hostOps0_3_W) :
    W4 m c (Proc.devRef .tc r) = m ((c : Thread nD τ).loc r) :=
  (hostOps0_3_keeps _ r h3).trans (W3_keeps m c r h0 h1 h2)

/-- A reference none of the first 5 host stretches writes holds after them what it held at launch. -/
theorem W5_keeps (c : Dev nD) (r : Ref sig .tc) (h0 : r ∉ hostOps0_W) (h1 : r ∉ hostOps0_1_W) (h2 : r ∉ hostOps0_2_W) (h3 : r ∉ hostOps0_3_W) (h4 : r ∉ hostOps0_4_W) :
    W5 m c (Proc.devRef .tc r) = m ((c : Thread nD τ).loc r) :=
  (hostOps0_4_keeps _ r h4).trans (W4_keeps m c r h0 h1 h2 h3)

/-- A reference none of the first 6 host stretches writes holds after them what it held at launch. -/
theorem W6_keeps (c : Dev nD) (r : Ref sig .tc) (h0 : r ∉ hostOps0_W) (h1 : r ∉ hostOps0_1_W) (h2 : r ∉ hostOps0_2_W) (h3 : r ∉ hostOps0_3_W) (h4 : r ∉ hostOps0_4_W) (h5 : r ∉ hostOps0_5_W) :
    W6 m c (Proc.devRef .tc r) = m ((c : Thread nD τ).loc r) :=
  (hostOps0_5_keeps _ r h5).trans (W5_keeps m c r h0 h1 h2 h3 h4)

/-- A reference none of the first 7 host stretches writes holds after them what it held at launch. -/
theorem W7_keeps (c : Dev nD) (r : Ref sig .tc) (h0 : r ∉ hostOps0_W) (h1 : r ∉ hostOps0_1_W) (h2 : r ∉ hostOps0_2_W) (h3 : r ∉ hostOps0_3_W) (h4 : r ∉ hostOps0_4_W) (h5 : r ∉ hostOps0_5_W) (h6 : r ∉ hostOps0_6_W) :
    W7 m c (Proc.devRef .tc r) = m ((c : Thread nD τ).loc r) :=
  (hostOps0_6_keeps _ r h6).trans (W6_keeps m c r h0 h1 h2 h3 h4 h5)

/-- A reference none of the first 8 host stretches writes holds after them what it held at launch. -/
theorem W8_keeps (c : Dev nD) (r : Ref sig .tc) (h0 : r ∉ hostOps0_W) (h1 : r ∉ hostOps0_1_W) (h2 : r ∉ hostOps0_2_W) (h3 : r ∉ hostOps0_3_W) (h4 : r ∉ hostOps0_4_W) (h5 : r ∉ hostOps0_5_W) (h6 : r ∉ hostOps0_6_W) (h7 : r ∉ hostOps0_7_W) :
    W8 m c (Proc.devRef .tc r) = m ((c : Thread nD τ).loc r) :=
  (hostOps0_7_keeps _ r h7).trans (W7_keeps m c r h0 h1 h2 h3 h4 h5 h6)

/-- A reference that no host stretch before the region writes and that is not the region's output array holds at the
    region's exit what it held at launch. -/
theorem W9_keeps (c : Dev nD) (r : Ref sig .tc) (h0 : r ∉ hostOps0_W) (h1 : r ∉ hostOps0_1_W) (h2 : r ∉ hostOps0_2_W) (h3 : r ∉ hostOps0_3_W) (h4 : r ∉ hostOps0_4_W) (h5 : r ∉ hostOps0_5_W) (h6 : r ∉ hostOps0_6_W) (h7 : r ∉ hostOps0_7_W) (h8 : r ≠ main_v69) :
    W9 m c (Proc.devRef .tc r) = m ((c : Thread nD τ).loc r) :=
  (W9_of_ne m c r h8).trans (W8_keeps m c r h0 h1 h2 h3 h4 h5 h6 h7)

/-- A reference that no host stretch writes and that is not the region's output array holds at the end what it
    held at launch. -/
theorem W10_keeps (c : Dev nD) (r : Ref sig .tc) (h0 : r ∉ hostOps0_W) (h1 : r ∉ hostOps0_1_W) (h2 : r ∉ hostOps0_2_W) (h3 : r ∉ hostOps0_3_W) (h4 : r ∉ hostOps0_4_W) (h5 : r ∉ hostOps0_5_W) (h6 : r ∉ hostOps0_6_W) (h7 : r ∉ hostOps0_7_W) (h8 : r ≠ main_v69) (h9 : r ∉ hostOps1_W) :
    W10 m c (Proc.devRef .tc r) = m ((c : Thread nD τ).loc r) :=
  (hostOps1_keeps _ r h9).trans (W9_keeps m c r h0 h1 h2 h3 h4 h5 h6 h7 h8)

/-! ## The six arguments -/

/-- Argument 0 holds at the end what it held at launch. -/
theorem W10_main_arg0 (c : Dev nD) : W10 m c (Proc.devRef .tc main_arg0) = m ((c : Thread nD τ).loc main_arg0) :=
  W10_keeps m c main_arg0 (by decide) (by decide) (by decide) (by decide) (by decide) (by decide) (by decide) (by decide) (by decide) (by decide)

/-- Argument 1 holds at the end what it held at launch. -/
theorem W10_main_arg1 (c : Dev nD) : W10 m c (Proc.devRef .tc main_arg1) = m ((c : Thread nD τ).loc main_arg1) :=
  W10_keeps m c main_arg1 (by decide) (by decide) (by decide) (by decide) (by decide) (by decide) (by decide) (by decide) (by decide) (by decide)

/-- Argument 2 holds at the end what it held at launch. -/
theorem W10_main_arg2 (c : Dev nD) : W10 m c (Proc.devRef .tc main_arg2) = m ((c : Thread nD τ).loc main_arg2) :=
  W10_keeps m c main_arg2 (by decide) (by decide) (by decide) (by decide) (by decide) (by decide) (by decide) (by decide) (by decide) (by decide)

/-- Argument 3 holds at the end what it held at launch. -/
theorem W10_main_arg3 (c : Dev nD) : W10 m c (Proc.devRef .tc main_arg3) = m ((c : Thread nD τ).loc main_arg3) :=
  W10_keeps m c main_arg3 (by decide) (by decide) (by decide) (by decide) (by decide) (by decide) (by decide) (by decide) (by decide) (by decide)

/-- Argument 4 holds at the end what it held at launch. -/
theorem W10_main_arg4 (c : Dev nD) : W10 m c (Proc.devRef .tc main_arg4) = m ((c : Thread nD τ).loc main_arg4) :=
  W10_keeps m c main_arg4 (by decide) (by decide) (by decide) (by decide) (by decide) (by decide) (by decide) (by decide) (by decide) (by decide)

/-- Argument 5 holds at the end what it held at launch. -/
theorem W10_main_arg5 (c : Dev nD) : W10 m c (Proc.devRef .tc main_arg5) = m ((c : Thread nD τ).loc main_arg5) :=
  W10_keeps m c main_arg5 (by decide) (by decide) (by decide) (by decide) (by decide) (by decide) (by decide) (by decide) (by decide) (by decide)

end Cert.KernelIdeal.Hand

end
-- ==== Proof.BridgeLogp.lean ====
/-
  The kernel's program and the reference compute the node embedding z by the same host operations (two
  graph-convolution layers: degree normalisation, gather, scale, scatter-add, bias, a relu between them), and
  the first result, the log-softmax of z, by the same fifteen operations on z.  So the buffer the kernel's
  program leaves for z holds the reference's z, operation for operation, and likewise the first result.
  The comparison goes stretch by stretch: what a stretch of host operations leaves in the buffers later
  stretches read is the reference's stage of that name, given that the buffers it reads hold the reference's
  stages.
-/
import proofs.«135904_j42322607735202_1_alg».proof.Proof.KI.Vals
import proofs.«135904_j42322607735202_1_alg».proof.Proof.KI.Args
import proofs.«135904_j42322607735202_1_alg».proof.Proof.RefRead

set_option maxRecDepth 16384

noncomputable section

namespace Cert.Bridge

open Idealize.ShloMosaic Idealize.ShloMosaic.TcCoe Idealize.SL.Sem
open Cert.KernelIdeal Cert.KernelIdeal.Gen Cert.KernelIdeal.Hand
open Cert.ReferenceIdeal.ReadP

variable {F : FTy → Type} [FloatOps F]

/-! ## Each stretch, from any contents -/

section Stretches

variable (V : Valuation Cert.KernelIdeal.τ Cert.KernelIdeal.sig (Elt F))

/-- The first stretch leaves the reference's `main_v3` in that buffer. -/
theorem s0_v3 :
    StableHlo.after hostOps0 V (Proc.devRef .tc main_v3) = val_main_v3 (F := F) (V (Proc.devRef .tc main_arg1)) := by
  after_results
  rfl

/-- The first stretch leaves the reference's `main_v6` in that buffer. -/
theorem s0_v6 :
    StableHlo.after hostOps0 V (Proc.devRef .tc main_v6) = val_main_v6 (F := F) (V (Proc.devRef .tc main_arg1)) := by
  after_results
  rfl

/-- The first stretch leaves the reference's `main_v12` in that buffer. -/
theorem s0_v12 :
    StableHlo.after hostOps0 V (Proc.devRef .tc main_v12) = val_main_v12 (F := F) (V (Proc.devRef .tc main_arg1)) := by
  after_results
  rfl

/-- The first stretch leaves the reference's `main_v15` in that buffer. -/
theorem s0_v15 :
    StableHlo.after hostOps0 V (Proc.devRef .tc main_v15) = val_main_v15 (F := F) (V (Proc.devRef .tc main_arg1)) := by
  after_results
  rfl

/-- The first stretch leaves the reference's `main_cst_3` in that buffer. -/
theorem s0_cst_3 :
    StableHlo.after hostOps0 V (Proc.devRef .tc main_cst_3) = val_main_cst_3 (F := F) := by
  after_results
  rfl

/-- The second stretch (the select of the degree normalisation). -/
theorem s1_v16 (x1 : (⟨Cert.ReferenceIdeal.S2x384000, .i32⟩ : BufTy).Contents (Elt F))
    (h12 : V (Proc.devRef .tc main_v12) = val_main_v12 (F := F) x1) (h15 : V (Proc.devRef .tc main_v15) = val_main_v15 (F := F) x1)
    (hc : V (Proc.devRef .tc main_cst_3) = val_main_cst_3 (F := F)) :
    StableHlo.after hostOps0_1 V (Proc.devRef .tc main_v16) = val_main_v16 (F := F) x1 := by
  after_results
  simp only [StableHlo.TRef.ofBuf, StableHlo.TRef.toBuf, cast_eq]
  rw [h12, h15, hc]
  rfl

/-- The third stretch: the edge weights. -/
theorem s2_v31 (x1 : (⟨Cert.ReferenceIdeal.S2x384000, .i32⟩ : BufTy).Contents (Elt F))
    (h3 : V (Proc.devRef .tc main_v3) = val_main_v3 (F := F) x1) (h6 : V (Proc.devRef .tc main_v6) = val_main_v6 (F := F) x1)
    (h16 : V (Proc.devRef .tc main_v16) = val_main_v16 (F := F) x1) :
    StableHlo.after hostOps0_2 V (Proc.devRef .tc main_v31) = val_main_v31 (F := F) x1 := by
  after_results_simp
  rw [h3, h6, h16]
  rfl

/-- The third stretch: the first layer before its relu. -/
theorem s2_v48 (x0 : (⟨Cert.ReferenceIdeal.S12000x500, .f32⟩ : BufTy).Contents (Elt F)) (x1 : (⟨Cert.ReferenceIdeal.S2x384000, .i32⟩ : BufTy).Contents (Elt F)) (x2 : (⟨Cert.ReferenceIdeal.S500x16, .f32⟩ : BufTy).Contents (Elt F)) (x3 : (⟨Cert.ReferenceIdeal.S16, .f32⟩ : BufTy).Contents (Elt F))
    (h3 : V (Proc.devRef .tc main_v3) = val_main_v3 (F := F) x1) (h6 : V (Proc.devRef .tc main_v6) = val_main_v6 (F := F) x1)
    (h16 : V (Proc.devRef .tc main_v16) = val_main_v16 (F := F) x1)
    (a0 : V (Proc.devRef .tc main_arg0) = x0) (a2 : V (Proc.devRef .tc main_arg2) = x2) (a3 : V (Proc.devRef .tc main_arg3) = x3) :
    StableHlo.after hostOps0_2 V (Proc.devRef .tc main_v48) = val_main_v48 (F := F) x0 x1 x2 x3 := by
  after_results_simp
  rw [h3, h6, h16, a0, a2, a3]
  rfl

/-- The fourth stretch: the relu. -/
theorem s3_v49 (x0 : (⟨Cert.ReferenceIdeal.S12000x500, .f32⟩ : BufTy).Contents (Elt F)) (x1 : (⟨Cert.ReferenceIdeal.S2x384000, .i32⟩ : BufTy).Contents (Elt F)) (x2 : (⟨Cert.ReferenceIdeal.S500x16, .f32⟩ : BufTy).Contents (Elt F)) (x3 : (⟨Cert.ReferenceIdeal.S16, .f32⟩ : BufTy).Contents (Elt F))
    (h48 : V (Proc.devRef .tc main_v48) = val_main_v48 (F := F) x0 x1 x2 x3) :
    StableHlo.after hostOps0_3 V (Proc.devRef .tc main_v49) = val_main_v49 (F := F) x0 x1 x2 x3 := by
  after_results
  simp only [StableHlo.TRef.ofBuf, StableHlo.TRef.toBuf, cast_eq]
  rw [h48]
  rfl

/-- The fifth stretch: the second layer, z. -/
theorem s4_v66 (x0 : (⟨Cert.ReferenceIdeal.S12000x500, .f32⟩ : BufTy).Contents (Elt F)) (x1 : (⟨Cert.ReferenceIdeal.S2x384000, .i32⟩ : BufTy).Contents (Elt F)) (x2 : (⟨Cert.ReferenceIdeal.S500x16, .f32⟩ : BufTy).Contents (Elt F)) (x3 : (⟨Cert.ReferenceIdeal.S16, .f32⟩ : BufTy).Contents (Elt F)) (x4 : (⟨Cert.ReferenceIdeal.S16x7, .f32⟩ : BufTy).Contents (Elt F)) (x5 : (⟨Cert.ReferenceIdeal.S7, .f32⟩ : BufTy).Contents (Elt F))
    (h3 : V (Proc.devRef .tc main_v3) = val_main_v3 (F := F) x1) (h6 : V (Proc.devRef .tc main_v6) = val_main_v6 (F := F) x1)
    (h31 : V (Proc.devRef .tc main_v31) = val_main_v31 (F := F) x1)
    (h49 : V (Proc.devRef .tc main_v49) = val_main_v49 (F := F) x0 x1 x2 x3)
    (a4 : V (Proc.devRef .tc main_arg4) = x4) (a5 : V (Proc.devRef .tc main_arg5) = x5) :
    StableHlo.after hostOps0_4 V (Proc.devRef .tc main_v66) = val_main_v66 (F := F) x0 x1 x2 x3 x4 x5 := by
  after_results_simp
  rw [h3, h6, h31, h49, a4, a5]
  rfl

/-- The sixth stretch: the log-softmax of z. -/
theorem s5_v67 (x0 : (⟨Cert.ReferenceIdeal.S12000x500, .f32⟩ : BufTy).Contents (Elt F)) (x1 : (⟨Cert.ReferenceIdeal.S2x384000, .i32⟩ : BufTy).Contents (Elt F)) (x2 : (⟨Cert.ReferenceIdeal.S500x16, .f32⟩ : BufTy).Contents (Elt F)) (x3 : (⟨Cert.ReferenceIdeal.S16, .f32⟩ : BufTy).Contents (Elt F)) (x4 : (⟨Cert.ReferenceIdeal.S16x7, .f32⟩ : BufTy).Contents (Elt F)) (x5 : (⟨Cert.ReferenceIdeal.S7, .f32⟩ : BufTy).Contents (Elt F))
    (h66 : V (Proc.devRef .tc main_v66) = val_main_v66 (F := F) x0 x1 x2 x3 x4 x5) :
    StableHlo.after hostOps0_5 V (Proc.devRef .tc main_v67) = val_main_v67 (F := F) x0 x1 x2 x3 x4 x5 := by
  after_results
  simp only [StableHlo.TRef.ofBuf, StableHlo.TRef.toBuf, cast_eq]
  rw [h66]
  unfold val_main_v67 val_main_call2_v10 val_main_call2_v9 val_main_call2_v8 val_main_call2_v7 val_main_call2_v6
    val_main_call2_v5 val_main_call2_v4 val_main_call2_v3 val_main_call2_v2 val_main_call2_v1 val_main_call2_v0
  generalize val_main_v66 (F := F) x0 x1 x2 x3 x4 x5 = z
  rfl

end Stretches

/-! ## The boundaries of the kernel's program -/

variable (m : (ℓ : Loc Cert.KernelIdeal.nD Cert.KernelIdeal.τ Cert.KernelIdeal.sig) → Buf (Elt F) ℓ)

section Boundaries

variable (c : Dev Cert.KernelIdeal.nD)

theorem W1_v3 : W1 m c (Proc.devRef .tc main_v3) = val_main_v3 (F := F) (m ((c.tc : Thread Cert.KernelIdeal.nD Cert.KernelIdeal.τ).loc Cert.KernelIdeal.main_arg1)) :=
  s0_v3 (W0 m c)
theorem W1_v6 : W1 m c (Proc.devRef .tc main_v6) = val_main_v6 (F := F) (m ((c.tc : Thread Cert.KernelIdeal.nD Cert.KernelIdeal.τ).loc Cert.KernelIdeal.main_arg1)) :=
  s0_v6 (W0 m c)
theorem W1_v12 : W1 m c (Proc.devRef .tc main_v12) = val_main_v12 (F := F) (m ((c.tc : Thread Cert.KernelIdeal.nD Cert.KernelIdeal.τ).loc Cert.KernelIdeal.main_arg1)) :=
  s0_v12 (W0 m c)
theorem W1_v15 : W1 m c (Proc.devRef .tc main_v15) = val_main_v15 (F := F) (m ((c.tc : Thread Cert.KernelIdeal.nD Cert.KernelIdeal.τ).loc Cert.KernelIdeal.main_arg1)) :=
  s0_v15 (W0 m c)
theorem W1_cst_3 : W1 m c (Proc.devRef .tc main_cst_3) = val_main_cst_3 (F := F) :=
  s0_cst_3 (W0 m c)

theorem W2_v16 : W2 m c (Proc.devRef .tc main_v16) = val_main_v16 (F := F) (m ((c.tc : Thread Cert.KernelIdeal.nD Cert.KernelIdeal.τ).loc Cert.KernelIdeal.main_arg1)) :=
  s1_v16 (W1 m c) _ (W1_v12 m c) (W1_v15 m c) (W1_cst_3 m c)
theorem W2_v3 : W2 m c (Proc.devRef .tc main_v3) = val_main_v3 (F := F) (m ((c.tc : Thread Cert.KernelIdeal.nD Cert.KernelIdeal.τ).loc Cert.KernelIdeal.main_arg1)) :=
  (hostOps0_1_keeps _ main_v3 (by decide)).trans (W1_v3 m c)
theorem W2_v6 : W2 m c (Proc.devRef .tc main_v6) = val_main_v6 (F := F) (m ((c.tc : Thread Cert.KernelIdeal.nD Cert.KernelIdeal.τ).loc Cert.KernelIdeal.main_arg1)) :=
  (hostOps0_1_keeps _ main_v6 (by decide)).trans (W1_v6 m c)

theorem W3_v31 : W3 m c (Proc.devRef .tc main_v31) = val_main_v31 (F := F) (m ((c.tc : Thread Cert.KernelIdeal.nD Cert.KernelIdeal.τ).loc Cert.KernelIdeal.main_arg1)) :=
  s2_v31 (W2 m c) _ (W2_v3 m c) (W2_v6 m c) (W2_v16 m c)
theorem W3_v48 : W3 m c (Proc.devRef .tc main_v48) = val_main_v48 (F := F) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) :=
  s2_v48 (W2 m c) _ _ _ _ (W2_v3 m c) (W2_v6 m c) (W2_v16 m c)
    (W2_keeps m c main_arg0 (by decide) (by decide)) (W2_keeps m c main_arg2 (by decide) (by decide))
    (W2_keeps m c main_arg3 (by decide) (by decide))
theorem W3_v3 : W3 m c (Proc.devRef .tc main_v3) = val_main_v3 (F := F) (m ((c.tc : Thread Cert.KernelIdeal.nD Cert.KernelIdeal.τ).loc Cert.KernelIdeal.main_arg1)) :=
  (hostOps0_2_keeps _ main_v3 (by decide)).trans (W2_v3 m c)
theorem W3_v6 : W3 m c (Proc.devRef .tc main_v6) = val_main_v6 (F := F) (m ((c.tc : Thread Cert.KernelIdeal.nD Cert.KernelIdeal.τ).loc Cert.KernelIdeal.main_arg1)) :=
  (hostOps0_2_keeps _ main_v6 (by decide)).trans (W2_v6 m c)

theorem W4_v49 : W4 m c (Proc.devRef .tc main_v49) = val_main_v49 (F := F) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) :=
  s3_v49 (W3 m c) _ _ _ _ (W3_v48 m c)
theorem W4_v3 : W4 m c (Proc.devRef .tc main_v3) = val_main_v3 (F := F) (m ((c.tc : Thread Cert.KernelIdeal.nD Cert.KernelIdeal.τ).loc Cert.KernelIdeal.main_arg1)) :=
  (hostOps0_3_keeps _ main_v3 (by decide)).trans (W3_v3 m c)
theorem W4_v6 : W4 m c (Proc.devRef .tc main_v6) = val_main_v6 (F := F) (m ((c.tc : Thread Cert.KernelIdeal.nD Cert.KernelIdeal.τ).loc Cert.KernelIdeal.main_arg1)) :=
  (hostOps0_3_keeps _ main_v6 (by decide)).trans (W3_v6 m c)
theorem W4_v31 : W4 m c (Proc.devRef .tc main_v31) = val_main_v31 (F := F) (m ((c.tc : Thread Cert.KernelIdeal.nD Cert.KernelIdeal.τ).loc Cert.KernelIdeal.main_arg1)) :=
  (hostOps0_3_keeps _ main_v31 (by decide)).trans (W3_v31 m c)

end Boundaries

/-- The node embedding z as the kernel's program computes it (its buffer after the first five host stretches) is the
    reference's z, as one function of the six arguments. -/
theorem z_eq (c : Dev Cert.KernelIdeal.nD) :
    W5 m c (Proc.devRef .tc Cert.KernelIdeal.main_v66)
      = Cert.ReferenceIdeal.ReadP.val_main_v66 (F := F) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) :=
  s4_v66 (W4 m c) _ _ _ _ _ _ (W4_v3 m c) (W4_v6 m c) (W4_v31 m c) (W4_v49 m c)
    (W4_keeps m c main_arg4 (by decide) (by decide) (by decide) (by decide))
    (W4_keeps m c main_arg5 (by decide) (by decide) (by decide) (by decide))

/-- The first result (the log-softmax of z) at the end of the kernel's program is the reference's. -/
theorem kernel_v67 (c : Dev Cert.KernelIdeal.nD) :
    W10 m c (Proc.devRef .tc Cert.KernelIdeal.main_v67)
      = Cert.ReferenceIdeal.ReadP.val_main_v67 (F := F) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) :=
  calc W10 m c (Proc.devRef .tc main_v67)
    _ = W9 m c (Proc.devRef .tc main_v67) := hostOps1_keeps _ main_v67 (by decide)
    _ = W8 m c (Proc.devRef .tc main_v67) := W9_of_ne m c main_v67 (by decide)
    _ = W7 m c (Proc.devRef .tc main_v67) := hostOps0_7_keeps _ main_v67 (by decide)
    _ = W6 m c (Proc.devRef .tc main_v67) := hostOps0_6_keeps _ main_v67 (by decide)
    _ = _ := s5_v67 (W5 m c) _ _ _ _ _ _ (z_eq m c)

end Cert.Bridge

end
-- ==== Proof.KI.Final.lean ====
/-
  What the kernel region leaves in its output array.

  The 64 output blocks tile the 12288 × 12288 array, block (i, j) being written back once, at grid point
  8·i + j, with the product of rows [1536·i, 1536·(i+1)) and rows [1536·j, 1536·(j+1)) of the padded feature
  matrix.  A matrix product into a zero accumulator is, over the extended reals, the plain sum of products
  over the 7 features.  So after the last point entry (r, s) of the output array is the inner product of rows
  r and s of the padded matrix, whatever block it lies in.
-/
import proofs.«135904_j42322607735202_1_alg».proof.Proof.Gen.KernelIdeal.Launch
import proofs.«135904_j42322607735202_1_alg».proof.Proof.Gen.KernelIdeal.Skeleton
import proofs.«135904_j42322607735202_1_alg».proof.Proof.Gen.KernelIdeal.Points
import proofs.«135904_j42322607735202_1_alg».proof.Proof.KI.Body
import Idealize.ShloMosaic.Lib.Pipeline.Value
import Idealize.ShloMosaic.Lib.ValueIdx
import Idealize.ShloMosaic.PureOps.Ideal.Laws
set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx (ix2 eq_ix2)

/-! ## The product of two blocks, entry by entry -/

/-- The offsets of a whole-block access are zero on both axes. -/
theorem hz : (![0, 0] : Fin 2 → Nat) = fun _ => 0 :=
  funext fun a => match a with | ⟨0, _⟩ => rfl | ⟨1, _⟩ => rfl

/-- The matrix product's dimension numbers: both operands contract their feature axis; the first operand's row axis
    is the result's row axis, the second operand's row axis the result's column axis. -/
theorem lhs_row (i : S1536x1536.Idx) (q : dot_S1536x7_S1536x7_S1536x1536_1_1_0_0_n_n.contr.Idx) :
    (dot_S1536x7_S1536x7_S1536x1536_1_1_0_0_n_n.lhsIdx i q 0).val = (i 0).val := by
  unfold DotDims.lhsIdx
  rw [dif_neg (show ¬(0 : Fin S1536x7.rank) ∈ dot_S1536x7_S1536x7_S1536x1536_1_1_0_0_n_n.lhsBatch by decide), dif_pos (show (0 : Fin S1536x7.rank) ∈ dot_S1536x7_S1536x7_S1536x1536_1_1_0_0_n_n.lhsNonContracting by decide)]
  rfl
theorem lhs_feat (i : S1536x1536.Idx) (q : dot_S1536x7_S1536x7_S1536x1536_1_1_0_0_n_n.contr.Idx) :
    (dot_S1536x7_S1536x7_S1536x1536_1_1_0_0_n_n.lhsIdx i q 1).val = (q ⟨0, by decide⟩).val :=
  dot_S1536x7_S1536x7_S1536x1536_1_1_0_0_n_n.lhsIdx_val_of_single rfl i q
theorem rhs_row (i : S1536x1536.Idx) (q : dot_S1536x7_S1536x7_S1536x1536_1_1_0_0_n_n.contr.Idx) :
    (dot_S1536x7_S1536x7_S1536x1536_1_1_0_0_n_n.rhsIdx i q 0).val = (i 1).val := by
  unfold DotDims.rhsIdx
  rw [dif_neg (show ¬(0 : Fin S1536x7.rank) ∈ dot_S1536x7_S1536x7_S1536x1536_1_1_0_0_n_n.rhsBatch by decide), dif_pos (show (0 : Fin S1536x7.rank) ∈ dot_S1536x7_S1536x7_S1536x1536_1_1_0_0_n_n.rhsNonContracting by decide)]
  rfl
theorem rhs_feat (i : S1536x1536.Idx) (q : dot_S1536x7_S1536x7_S1536x1536_1_1_0_0_n_n.contr.Idx) :
    (dot_S1536x7_S1536x7_S1536x1536_1_1_0_0_n_n.rhsIdx i q 1).val = (q ⟨0, by decide⟩).val :=
  dot_S1536x7_S1536x7_S1536x1536_1_1_0_0_n_n.rhsIdx_val_of_single rfl i q

/-- Entry `(p, q)` of the body's product of two blocks is the inner product of row `p` of the first with row `q` of
    the second: the accumulator is the zero splat, so over the extended reals the product is the plain sum over the
    7 features. -/
theorem pay_apply (x0 x1 : Vec Ideal S1536x7 .f32) (p q : Fin 1536) :
    (k0_pay1 (F := Ideal) x0 x1 : S1536x1536.Idx → EReal) (ix2 p q)
      = ∑ k : Fin 7, (x0 : S1536x7.Idx → EReal) (ix2 p k) * (x1 : S1536x7.Idx → EReal) (ix2 q k) := by
  unfold k0_pay1
  rw [shapeCast_self, shapeCast_self]
  refine (Ideal.matmul_constant_zero_apply dot_S1536x7_S1536x7_S1536x1536_1_1_0_0_n_n none x0 x1 (ix2 p q)).trans ?_
  rw [← Equiv.sum_comp (ValueIdx.contrEquiv1 dot_S1536x7_S1536x7_S1536x1536_1_1_0_0_n_n 7 rfl rfl).symm]
  refine Finset.sum_congr rfl fun k _ => ?_
  have hk := ValueIdx.contrEquiv1_symm_val dot_S1536x7_S1536x7_S1536x1536_1_1_0_0_n_n 7 rfl rfl k
  have el : dot_S1536x7_S1536x7_S1536x1536_1_1_0_0_n_n.lhsIdx (ix2 p q) ((ValueIdx.contrEquiv1 dot_S1536x7_S1536x7_S1536x1536_1_1_0_0_n_n 7 rfl rfl).symm k) = (ix2 p k : S1536x7.Idx) := funext fun a => Fin.ext (by
    match a with
    | ⟨0, _⟩ => exact lhs_row _ _
    | ⟨1, _⟩ => exact (lhs_feat _ _).trans hk)
  have er : dot_S1536x7_S1536x7_S1536x1536_1_1_0_0_n_n.rhsIdx (ix2 p q) ((ValueIdx.contrEquiv1 dot_S1536x7_S1536x7_S1536x1536_1_1_0_0_n_n 7 rfl rfl).symm k) = (ix2 q k : S1536x7.Idx) := funext fun a => Fin.ext (by
    match a with
    | ⟨0, _⟩ => exact rhs_row _ _
    | ⟨1, _⟩ => exact (rhs_feat _ _).trans hk)
  rw [el, er]

/-! ## The grid -/

/-- The index maps over the 64 grid points, decided: point `t` is block row `t / 8`, block column `t % 8`; the first
    input window follows the block row, the second the block column, both on the feature axis at block 0. -/
theorem idx_facts : ∀ t : Fin cfg0.N,
    win0_2.index t (0 : Fin 2) = t.val / 8 ∧ win0_2.index t (1 : Fin 2) = t.val % 8
    ∧ win0_0.index t (0 : Fin 2) = t.val / 8 ∧ win0_0.index t (1 : Fin 2) = 0
    ∧ win0_1.index t (0 : Fin 2) = t.val % 8 ∧ win0_1.index t (1 : Fin 2) = 0 :=
  (by decide +kernel : ∀ t : Fin grid0.N, _)

/-- An index of the output array is in point `t`'s block iff each coordinate is in the block's range on its axis. -/
theorem mem_blk (t : Fin cfg0.N) (i : S12288x12288.Idx) :
    i ∈ ((cfg0.win 2).blk t).view.set ↔ ∀ a : Fin 2, win0_2.index t a * S1536x1536.size a ≤ (i a).val ∧ (i a).val < win0_2.index t a * S1536x1536.size a + S1536x1536.size a := by
  show i ∈ ((View.whole main_v69).slice (win0_2.rect t)).set ↔ _
  rw [View.set_slice_whole, Rect.mem_set_unit]
  exact Iff.rfl

/-- The 64 blocks tile the output array: entry `(r, s)` lies in the block of point `8·(r / 1536) + s / 1536`. -/
theorem cover (i : S12288x12288.Idx) :
    ∃ t : Fin cfg0.N, (cfg0.win 2).flush t = true ∧ i ∈ ((cfg0.win 2).blk t).view.set := by
  have hi0 : (i 0).val < 12288 := (i 0).isLt
  have hi1 : (i 1).val < 12288 := (i 1).isLt
  refine ⟨⟨8 * ((i 0).val / 1536) + (i 1).val / 1536, by show _ < 64; omega⟩, flush0_2 _, ?_⟩
  rw [mem_blk]
  obtain ⟨e0, e1, -, -, -, -⟩ := idx_facts ⟨8 * ((i 0).val / 1536) + (i 1).val / 1536, by show _ < 64; omega⟩
  intro a
  match a with
  | ⟨0, _⟩ =>
    show win0_2.index _ (0 : Fin 2) * 1536 ≤ (i 0).val ∧ (i 0).val < win0_2.index _ (0 : Fin 2) * 1536 + 1536
    rw [e0]; show (8 * ((i 0).val / 1536) + (i 1).val / 1536) / 8 * 1536 ≤ (i 0).val ∧ (i 0).val < (8 * ((i 0).val / 1536) + (i 1).val / 1536) / 8 * 1536 + 1536
    omega
  | ⟨1, _⟩ =>
    show win0_2.index _ (1 : Fin 2) * 1536 ≤ (i 1).val ∧ (i 1).val < win0_2.index _ (1 : Fin 2) * 1536 + 1536
    rw [e1]; show (8 * ((i 0).val / 1536) + (i 1).val / 1536) % 8 * 1536 ≤ (i 1).val ∧ (i 1).val < (8 * ((i 0).val / 1536) + (i 1).val / 1536) % 8 * 1536 + 1536
    omega

/-! ## The input blocks as rows of the padded matrix -/

variable (V : (c : Dev nD) → (b : Ref sig .tc) → Buf (Elt Ideal) ((c : Thread nD τ).loc b))

/-- The array both input windows read (the padded feature matrix), as the region finds it on core `c`. -/
abbrev zpad (c : Dev nD) : S12288x7.Idx → EReal := V c main_v68

/-- The Gram matrix of a 12288 × 7 matrix: entry `(r, s)` is the inner product of rows `r` and `s`. -/
abbrev gram (zp : S12288x7.Idx → EReal) : S12288x12288.Idx → EReal :=
  fun i => ∑ k : Fin 7, zp (ix2 (i 0) k) * zp (ix2 (i 1) k)

/-- Row `p` of the first window's block at point `t` is row `1536·(t / 8) + p` of the padded matrix. -/
theorem iblk0_0_apply (c : Dev nD) (t : Fin cfg0.N) (p : Fin 1536) (k : Fin 7) (r : Fin 12288)
    (hr : r.val = t.val / 8 * 1536 + p.val) :
    (iblk0 (F := Ideal) V c 0 t : S1536x7.Idx → EReal) (ix2 p k) = (V c main_v68 : S12288x7.Idx → EReal) (ix2 r k) := by
  obtain ⟨-, -, e0, e1, -, -⟩ := idx_facts t
  show (V c main_v68 : S12288x7.Idx → EReal) (((cfg0.win 0).blk t).view.emb (ix2 p k)) = _
  congr 1
  funext a
  apply Fin.ext
  match a with
  | ⟨0, _⟩ => show win0_0.index t (0 : Fin 2) * 1536 + 1 * p.val = r.val; rw [e0, hr]; omega
  | ⟨1, _⟩ => show win0_0.index t (1 : Fin 2) * 7 + 1 * k.val = k.val; rw [e1]; omega

/-- Row `q` of the second window's block at point `t` is row `1536·(t % 8) + q` of the same matrix. -/
theorem iblk0_1_apply (c : Dev nD) (t : Fin cfg0.N) (q : Fin 1536) (k : Fin 7) (r : Fin 12288)
    (hr : r.val = t.val % 8 * 1536 + q.val) :
    (iblk0 (F := Ideal) V c 1 t : S1536x7.Idx → EReal) (ix2 q k) = (V c main_v68 : S12288x7.Idx → EReal) (ix2 r k) := by
  obtain ⟨-, -, -, -, e0, e1⟩ := idx_facts t
  show (V c main_v68 : S12288x7.Idx → EReal) (((cfg0.win 1).blk t).view.emb (ix2 q k)) = _
  congr 1
  funext a
  apply Fin.ext
  match a with
  | ⟨0, _⟩ => show win0_1.index t (0 : Fin 2) * 1536 + 1 * q.val = r.val; rw [e0, hr]; omega
  | ⟨1, _⟩ => show win0_1.index t (1 : Fin 2) * 7 + 1 * k.val = k.val; rw [e1]; omega

/-! ## What each point writes back, and the array after the last point -/

/-- What point `t` writes back is block `t` of the Gram matrix of the padded matrix as the region finds it. -/
theorem flushed_eq (c : Dev nD) (t : Fin cfg0.N) :
    (dat0 (F := Ideal) V c).flushed 2 t = ((cfg0.win 2).blk t).view.read (Elt Ideal) (gram (V c main_v68)) := by
  show (cfg0.win 2).cut (grid0.coords t) ((dat0 V c).after 2 t) = _
  rw [after0_2]
  unfold out0_2
  rw [View.canon_unit_zero hz]
  simp only [View.ld_unit_zero (S := S1536x7) hz]
  obtain ⟨e0, e1, -, -, -, -⟩ := idx_facts t
  funext j
  have hj0 : (j 0).val < 1536 := (j 0).isLt
  have hj1 : (j 1).val < 1536 := (j 1).isLt
  have hx : ((cfg0.win 2).xinj (grid0.coords t) j : S1536x1536.Idx) = ix2 (⟨(j 0).val, hj0⟩ : Fin 1536) (⟨(j 1).val, hj1⟩ : Fin 1536) :=
    funext fun a => match a with | ⟨0, _⟩ => rfl | ⟨1, _⟩ => rfl
  show (k0_pay1 (F := Ideal) (iblk0 V c 0 t) (iblk0 V c 1 t) : S1536x1536.Idx → EReal) ((cfg0.win 2).xinj (grid0.coords t) j)
    = gram (V c main_v68) (((cfg0.win 2).blk t).view.emb j)
  refine (congrArg (k0_pay1 (F := Ideal) (iblk0 V c 0 t) (iblk0 V c 1 t) : S1536x1536.Idx → EReal) hx).trans ?_
  refine (pay_apply (iblk0 V c 0 t) (iblk0 V c 1 t) ⟨(j 0).val, hj0⟩ ⟨(j 1).val, hj1⟩).trans ?_
  refine Finset.sum_congr rfl fun k _ => ?_
  exact congrArg₂ (· * ·)
    (iblk0_0_apply V c t ⟨(j 0).val, hj0⟩ k ((((cfg0.win 2).blk t).view.emb j : S12288x12288.Idx) 0) (by
      show win0_2.index t (0 : Fin 2) * 1536 + 1 * (j 0).val = t.val / 8 * 1536 + (j 0).val
      rw [e0]; omega))
    (iblk0_1_apply V c t ⟨(j 1).val, hj1⟩ k ((((cfg0.win 2).blk t).view.emb j : S12288x12288.Idx) 1) (by
      show win0_2.index t (1 : Fin 2) * 1536 + 1 * (j 1).val = t.val % 8 * 1536 + (j 1).val
      rw [e1]; omega))

/-- The blocks tile the array and each is its block of the Gram matrix: the array ends at the Gram matrix. -/
theorem final (c : Dev nD) : (dat0 (F := Ideal) V c).arrAt 2 cfg0.N = gram (zpad V c) :=
  (dat0 (F := Ideal) V c).arrAt_eq_of_cover 2 (gram (V c main_v68)) (fun t _ => flushed_eq V c t) cover

/-- After the last grid point, entry `i = (r, s)` of the region's output array is the inner product of rows `r` and `s`
    of the array both input windows read (the padded feature matrix, as the region finds it). -/
theorem arrAt_out_apply (c : Dev nD) (i : S12288x12288.Idx) :
    @Eq EReal ((dat0 (F := Ideal) V c).arrAt 2 cfg0.N i)
      (∑ k : Fin 7, zpad V c (ValueIdx.ix2 (i 0) k) * zpad V c (ValueIdx.ix2 (i 1) k)) :=
  congrFun (final V c) i

end Cert.KernelIdeal.Hand

end
-- ==== Proof.BridgeGram.lean ====
/-
  The second result.  The kernel's program pads z with 288 zero rows, forms in its kernel region the 12288 × 12288
  array of inner products of the padded rows, and slices rows and columns [0, 12000) back out: entry (r, s) of what
  is left is the inner product of rows r and s of z, the padding never read.  The reference multiplies z by its
  transpose: over the extended reals entry (r, s) is the same sum of seven products.
-/
import proofs.«135904_j42322607735202_1_alg».proof.Proof.KI.Vals
import proofs.«135904_j42322607735202_1_alg».proof.Proof.RefRead
import proofs.«135904_j42322607735202_1_alg».proof.Proof.KI.Final
import proofs.«135904_j42322607735202_1_alg».proof.Proof.BridgeLogp
import Idealize.ShloMosaic.Lib.KernelVsHost
set_option maxRecDepth 16384

noncomputable section

namespace Cert.Bridge

open Idealize.ShloMosaic Idealize.ShloMosaic.TcCoe Idealize.SL.Sem
open Cert.KernelIdeal Cert.KernelIdeal.Gen Cert.KernelIdeal.Hand

section Generic

variable {F : FTy → Type} [FloatOps F]
variable (m : (ℓ : Loc Cert.KernelIdeal.nD Cert.KernelIdeal.τ Cert.KernelIdeal.sig) → Buf (Elt F) ℓ)

/-! ## The host operations around the region -/

/-- The last host stretch, from any contents: its result is the slice of what main_v69 holds. -/
theorem slice_stretch (V : Valuation τ sig (Elt F)) :
    StableHlo.after hostOps1 V (Proc.devRef .tc main_v70)
      = (extractStridedSlice S12000x12000 ![0, 0] (V (Proc.devRef .tc main_v69) : (⟨S12288x12288, .f32⟩ : BufTy).Contents (Elt F))
          slices_S12288x12288_S12000x12000_0_0 : (⟨S12000x12000, .f32⟩ : BufTy).Contents (Elt F)) := by
  dsimp only [hostOps1]
  after_results

/-- The padding stretch, from any contents: its result is the pad of what main_v66 holds, by the converted integer constant. -/
theorem pad_stretch (V : Valuation τ sig (Elt F)) :
    StableHlo.after hostOps0_7 V (Proc.devRef .tc main_v68)
      = (pad S12288x7 ![0, 0] ![288, 0] ![0, 0] (V (Proc.devRef .tc main_v66) : (⟨S12000x7, .f32⟩ : BufTy).Contents (Elt F))
          (sitofp .f32 (V (Proc.devRef .tc main_c_13) : (⟨S_, .i32⟩ : BufTy).Contents (Elt F)) : (⟨S_, .f32⟩ : BufTy).Contents (Elt F))
          pads_S12000x7_S12288x7_02880_000 h_S_ : (⟨S12288x7, .f32⟩ : BufTy).Contents (Elt F)) := by
  dsimp only [hostOps0_7]
  after_results
  rfl

/-- The one host operation after the region cuts rows and columns [0, 12000) out of the region's output array. -/
theorem W10_v70 (c : Dev nD) :
    W10 m c (Proc.devRef .tc main_v70)
      = (extractStridedSlice S12000x12000 ![0, 0] (W9 m c (Proc.devRef .tc main_v69) : (⟨S12288x12288, .f32⟩ : BufTy).Contents (Elt F))
          slices_S12288x12288_S12000x12000_0_0 : (⟨S12000x12000, .f32⟩ : BufTy).Contents (Elt F)) := by
  exact slice_stretch (W9 m c)

/-- The array both input windows read is z with 288 rows of one padding value appended. -/
theorem W8_v68 (c : Dev nD) :
    W8 m c (Proc.devRef .tc main_v68)
      = (pad S12288x7 ![0, 0] ![288, 0] ![0, 0] (W7 m c (Proc.devRef .tc main_v66) : (⟨S12000x7, .f32⟩ : BufTy).Contents (Elt F))
          (sitofp .f32 (W7 m c (Proc.devRef .tc main_c_13) : (⟨S_, .i32⟩ : BufTy).Contents (Elt F)) : (⟨S_, .f32⟩ : BufTy).Contents (Elt F))
          pads_S12000x7_S12288x7_02880_000 h_S_ : (⟨S12288x7, .f32⟩ : BufTy).Contents (Elt F)) := by
  exact pad_stretch (W7 m c)

/-- Neither the log-softmax's fifteen operations nor the integer constant after them write z. -/
theorem W7_v66 (c : Dev nD) : W7 m c (Proc.devRef .tc main_v66) = W5 m c (Proc.devRef .tc main_v66) :=
  calc W7 m c (Proc.devRef .tc main_v66)
    _ = W6 m c (Proc.devRef .tc main_v66) := StableHlo.after_of_forall_not_mem (b := Proc.devRef .tc main_v66) _ _ (List.forall_iff_forall_mem.mp (by
          simp only [hostOps0_6, List.Forall, StableHlo.nullary_writes, StableHlo.unary_writes, StableHlo.binary_writes, Finset.mem_singleton]
          exact StableHlo.devRef_ne_of_ne (by decide)))
    _ = W5 m c (Proc.devRef .tc main_v66) := StableHlo.after_of_forall_not_mem (b := Proc.devRef .tc main_v66) _ _ (List.forall_iff_forall_mem.mp (by
          simp only [hostOps0_5, List.Forall, StableHlo.nullary_writes, StableHlo.unary_writes, StableHlo.binary_writes, Finset.mem_singleton]
          repeat' apply And.intro
          all_goals exact StableHlo.devRef_ne_of_ne (by decide)))

/-- A row of the padded array below 12000 is that row of z: the padding is never met. -/
theorem zp_apply (c : Dev nD) (r : Fin 12288) (hr : r.val < 12000) (k : Fin 7) :
    (W8 m c (Proc.devRef .tc main_v68) : S12288x7.Idx → Elt F .f32) (ValueIdx.ix2 r k)
      = (W5 m c (Proc.devRef .tc main_v66) : S12000x7.Idx → Elt F .f32) (ValueIdx.ix2 (⟨r.val, hr⟩ : Fin 12000) k) := by
  rw [W8_v68, W7_v66]
  exact pad_apply_of_inside _ _ _ _ _ pads_S12000x7_S12288x7_02880_000 h_S_ (ValueIdx.ix2 r k) (ValueIdx.ix2 (⟨r.val, hr⟩ : Fin 12000) k) (fun a => match a with
    | ⟨0, _⟩ => by show r.val = 0 + r.val * (0 + 1); omega
    | ⟨1, _⟩ => by show k.val = 0 + k.val * (0 + 1); omega)

end Generic

variable (m : (ℓ : Loc Cert.KernelIdeal.nD Cert.KernelIdeal.τ Cert.KernelIdeal.sig) → Buf (Elt Ideal) ℓ)

/-! ## The second result entry by entry -/

/-- z as the kernel's program holds it on core c: a 12000 × 7 array of extended reals. -/
abbrev zK (c : Dev nD) : S12000x7.Idx → EReal := W5 m c (Proc.devRef .tc main_v66)

/-- Entry (r, s) of the second result is the inner product of rows r and s of z, as the kernel's program holds z. -/
theorem W10_v70_apply (c : Dev nD) (i : S12000x12000.Idx) :
    @Eq EReal ((W10 m c (Proc.devRef .tc main_v70) : S12000x12000.Idx → EReal) i)
      (∑ k : Fin 7, zK m c (ValueIdx.ix2 (i 0) k) * zK m c (ValueIdx.ix2 (i 1) k)) := by
  have hr : (i 0).val < 12000 := (i 0).isLt
  have hs : (i 1).val < 12000 := (i 1).isLt
  rw [W10_v70]
  refine (extractStridedSlice_apply _ _ slices_S12288x12288_S12000x12000_0_0 i
    (ValueIdx.ix2 (⟨(i 0).val, by omega⟩ : Fin 12288) (⟨(i 1).val, by omega⟩ : Fin 12288)) (fun a => match a with
      | ⟨0, _⟩ => by show (i 0).val = 0 + (i 0).val; omega
      | ⟨1, _⟩ => by show (i 1).val = 0 + (i 1).val; omega)).trans ?_
  rw [W9_out]
  refine (arrAt_out_apply (V8 m) c _).trans ?_
  refine Finset.sum_congr rfl fun k _ => ?_
  exact congrArg₂ (fun a b : EReal => a * b)
    (zp_apply m c (⟨(i 0).val, by omega⟩ : Fin 12288) hr k) (zp_apply m c (⟨(i 1).val, by omega⟩ : Fin 12288) hs k)

/-- The reference's left factor is read at (r, k). -/
theorem lidx_eq (i : Cert.ReferenceIdeal.S12000x12000.Idx) (k : Fin 7) :
    Cert.ReferenceIdeal.ReadP.lidx_main_v69 i k = (ValueIdx.ix2 (i 0) k : Cert.ReferenceIdeal.S12000x7.Idx) :=
  funext fun a => Fin.ext (by match a with | ⟨0, _⟩ => rfl | ⟨1, _⟩ => rfl)

/-- The reference's right factor, the transpose of z, is read at (k, s): z at (s, k). -/
theorem ridx_eq (i : Cert.ReferenceIdeal.S12000x12000.Idx) (k : Fin 7) :
    Cert.ReferenceIdeal.ReadP.idx_main_v68 (Cert.ReferenceIdeal.ReadP.ridx_main_v69 i k) = (ValueIdx.ix2 (i 1) k : Cert.ReferenceIdeal.S12000x7.Idx) :=
  funext fun a => Fin.ext (by match a with | ⟨0, _⟩ => rfl | ⟨1, _⟩ => rfl)

/-- The second result is the reference's z zᵀ, given that the kernel's program holds the reference's z. -/
theorem kernel_v70_of (c : Dev Cert.KernelIdeal.nD)
    (hz : W5 m c (Proc.devRef .tc Cert.KernelIdeal.main_v66)
      = Cert.ReferenceIdeal.ReadP.val_main_v66 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) :
    W10 m c (Proc.devRef .tc Cert.KernelIdeal.main_v70)
      = Cert.ReferenceIdeal.ReadP.val_main_v69 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  funext i
  rw [Cert.ReferenceIdeal.ReadP.val_main_v69_apply]
  simp only [Cert.ReferenceIdeal.ReadP.val_main_v68_apply]
  rw [← hz]
  refine (W10_v70_apply m c i).trans (Finset.sum_congr rfl fun k _ => ?_)
  rw [lidx_eq i k, ridx_eq i k]

/-- The second result at the end of the kernel's program is the reference's z zᵀ. -/
theorem kernel_v70 (c : Dev Cert.KernelIdeal.nD) :
    W10 m c (Proc.devRef .tc Cert.KernelIdeal.main_v70)
      = Cert.ReferenceIdeal.ReadP.val_main_v69 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) :=
  kernel_v70_of m c (z_eq m c)

end Cert.Bridge

end
-- ==== Proof.lean ====
/-
  The certificate of the inner-product decoder.

  Both programs compute the node embedding z (two graph-convolution layers over the edge list with self-loops,
  symmetric degree normalisation, a relu between them) and return its log-softmax by the same host operations.
  They differ in the second result, z zᵀ: the reference forms it as one matrix product of z with its transpose;
  the kernel pads z with 288 zero rows to 12288 rows, computes the 12288 × 12288 product block by block on an
  8 × 8 grid — block (i, j) the product of row block i with the transpose of row block j, both read from the one
  padded array — and slices the first 12000 rows and columns back out.  Over the extended reals a product into a
  zero accumulator and the host's product are both the plain sum of seven products, the padding rows are never
  read by the kept entries, and the blocks tile the array: entry (r, s) is the inner product of rows r and s of z
  on both sides.  No law that needs finiteness is used, so the precondition is not opened.

  The three frames: each program runs to the end from any memory with zero counters and writes none of its
  arguments (every host operation writes a buffer of its own, the kernel region its output array only).  The
  idealization rewrote nothing, so the preservation claim is trivial.
-/
import proofs.«135904_j42322607735202_1_alg».proof.Defs
import proofs.«135904_j42322607735202_1_alg».proof.Proof.Gen.Kernel
import proofs.«135904_j42322607735202_1_alg».proof.Proof.Gen.KernelIdeal
import proofs.«135904_j42322607735202_1_alg».proof.Proof.Gen.ReferenceIdeal
import proofs.«135904_j42322607735202_1_alg».proof.Proof.Gen.Pre_finite_inputs
import proofs.«135904_j42322607735202_1_alg».proof.Proof.K.Run
import proofs.«135904_j42322607735202_1_alg».proof.Proof.K.Args
import proofs.«135904_j42322607735202_1_alg».proof.Proof.KI.Run
import proofs.«135904_j42322607735202_1_alg».proof.Proof.KI.Args
import proofs.«135904_j42322607735202_1_alg».proof.Proof.RefRead
import proofs.«135904_j42322607735202_1_alg».proof.Proof.BridgeLogp
import proofs.«135904_j42322607735202_1_alg».proof.Proof.BridgeGram
import Idealize.ShloMosaic.Adequacy
import Idealize.ShloMosaic.Init

noncomputable section

namespace Cert.Proof

open Idealize.ShloMosaic Idealize.SL.Sem

/-- The word-level program runs, and its arguments end as launched. -/
theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Hand.W10_main_arg0 m c),
      (h c _ (Cert.Kernel.Hand.mem_uc Cert.Kernel.main_arg1 (by decide))).trans (Cert.Kernel.Hand.W10_main_arg1 m c),
      (h c _ (Cert.Kernel.Hand.mem_uc Cert.Kernel.main_arg2 (by decide))).trans (Cert.Kernel.Hand.W10_main_arg2 m c),
      (h c _ (Cert.Kernel.Hand.mem_uc Cert.Kernel.main_arg3 (by decide))).trans (Cert.Kernel.Hand.W10_main_arg3 m c),
      (h c _ (Cert.Kernel.Hand.mem_uc Cert.Kernel.main_arg4 (by decide))).trans (Cert.Kernel.Hand.W10_main_arg4 m c),
      (h c _ (Cert.Kernel.Hand.mem_uc Cert.Kernel.main_arg5 (by decide))).trans (Cert.Kernel.Hand.W10_main_arg5 m c)⟩)
    (Cert.Kernel.Hand.run_main (F := Bits) m ρ)

/-- The idealized program runs, and its arguments end as launched. -/
theorem frame_ki : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W10_main_arg0 m c),
      (h c _ (Cert.KernelIdeal.Hand.mem_uc Cert.KernelIdeal.main_arg1 (by decide))).trans (Cert.KernelIdeal.Hand.W10_main_arg1 m c),
      (h c _ (Cert.KernelIdeal.Hand.mem_uc Cert.KernelIdeal.main_arg2 (by decide))).trans (Cert.KernelIdeal.Hand.W10_main_arg2 m c),
      (h c _ (Cert.KernelIdeal.Hand.mem_uc Cert.KernelIdeal.main_arg3 (by decide))).trans (Cert.KernelIdeal.Hand.W10_main_arg3 m c),
      (h c _ (Cert.KernelIdeal.Hand.mem_uc Cert.KernelIdeal.main_arg4 (by decide))).trans (Cert.KernelIdeal.Hand.W10_main_arg4 m c),
      (h c _ (Cert.KernelIdeal.Hand.mem_uc Cert.KernelIdeal.main_arg5 (by decide))).trans (Cert.KernelIdeal.Hand.W10_main_arg5 m c)⟩)
    (Cert.KernelIdeal.Hand.run_main (F := Ideal) m ρ)

/-- The reference runs, and its arguments end as launched: its run with the results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- Both idealized programs end with the log-softmax of z and with z zᵀ, as the reference's own stages state them. -/
theorem algebraic : Cert.algebraic_KernelIdeal_ReferenceIdeal := by
  intro m ρ m' ρ' _ hagree
  refine ⟨fun c => Cert.ReferenceIdeal.ReadP.val_main_v67 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.ReadP.val_main_v69 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c =>
      ⟨(h c _ (Cert.KernelIdeal.Hand.mem_uc Cert.KernelIdeal.main_v67 (by decide))).trans (Cert.Bridge.kernel_v67 m c),
        (h c _ (Cert.KernelIdeal.Hand.mem_uc Cert.KernelIdeal.main_v70 (by decide))).trans (Cert.Bridge.kernel_v70 m c),
        (h c _ (Cert.KernelIdeal.Hand.mem_uc Cert.KernelIdeal.main_arg0 (by decide))).trans (Cert.KernelIdeal.Hand.W10_main_arg0 m c),
        (h c _ (Cert.KernelIdeal.Hand.mem_uc Cert.KernelIdeal.main_arg1 (by decide))).trans (Cert.KernelIdeal.Hand.W10_main_arg1 m c),
        (h c _ (Cert.KernelIdeal.Hand.mem_uc Cert.KernelIdeal.main_arg2 (by decide))).trans (Cert.KernelIdeal.Hand.W10_main_arg2 m c),
        (h c _ (Cert.KernelIdeal.Hand.mem_uc Cert.KernelIdeal.main_arg3 (by decide))).trans (Cert.KernelIdeal.Hand.W10_main_arg3 m c),
        (h c _ (Cert.KernelIdeal.Hand.mem_uc Cert.KernelIdeal.main_arg4 (by decide))).trans (Cert.KernelIdeal.Hand.W10_main_arg4 m c),
        (h c _ (Cert.KernelIdeal.Hand.mem_uc Cert.KernelIdeal.main_arg5 (by decide))).trans (Cert.KernelIdeal.Hand.W10_main_arg5 m c)⟩)
      (Cert.KernelIdeal.Hand.run_main (F := Ideal) m ρ)
  · refine (θ_run Cert.ReferenceIdeal.defs _ _).mono (fun _ h c => ⟨(h c).1.trans ?_, (h c).2.1.trans ?_, (h c).2.2⟩)
      (Cert.ReferenceIdeal.ValueP.run (F := Ideal) m' ρ')
    · rw [Cert.ReferenceIdeal.ReadP.val_main_v67_eq, (hagree c).1, (hagree c).2.1, (hagree c).2.2.1, (hagree c).2.2.2.1,
        (hagree c).2.2.2.2.1, (hagree c).2.2.2.2.2]
    · rw [Cert.ReferenceIdeal.ReadP.val_main_v69_eq, (hagree c).1, (hagree c).2.1, (hagree c).2.2.1, (hagree c).2.2.2.1,
        (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
